-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S256x32 : Shape := ⟨2, ![256, 32]⟩
abbrev S32x512 : Shape := ⟨2, ![32, 512]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32x512 : S_.BroadcastsInDim S32x512 (![] : Fin 0 → Fin S32x512.rank)
  reducesTo_S32x512_S_d0_1 : S32x512.ReducesTo [0, 1] S_

variable [Facts]

def fn_part1 {F : FTy → Type} [FloatOps F] (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  main_v18

def fn {F : FTy → Type} [FloatOps F] (main_arg0 : FVec F S32x256x32x32 .f32) (main_arg1 : FVec F S32x256x32x32 .f32) (main_arg2 : FVec F S256x32 .f32) (main_arg3 : FVec F S32x512 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S32x256x32x32 .f32 := Host.absf main_arg1
  let main_cst_0 : FVec F S_ .f32 := constant S_ .f32 0x7F800000#32
  let main_v5 : FVec F S32x256x32x32 .f32 := broadcastInDim S32x256x32x32 ![] bcast_S_S32x256x32x32 main_cst_0
  let main_v6 : IVec S32x256x32x32 1 := cmpf .olt main_v4 main_v5
  let main_c_1 : IVec S_ 1 := constantI S_ 1 1#1
  let main_v7 : IVec S_ 1 := (fun x v => Host.reduce IntOp.andi x v reducesTo_S32x256x32x32_S_d0_1_2_3 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_v13 main_v16
-- ==== Kernel.lean ====
abbrev S32x256x32x32 : Shape := ⟨4, ![32, 256, 32, 32]⟩
abbrev S256x32 : Shape := ⟨2, ![256, 32]⟩
abbrev S32x512 : Shape := ⟨2, ![32, 512]⟩
abbrev S32x256x1024 : Shape := ⟨3, ![32, 256, 1024]⟩
abbrev S4x256x1024 : Shape := ⟨3, ![4, 256, 1024]⟩
abbrev S4x256 : Shape := ⟨2, ![4, 256]⟩
abbrev S4x32 : Shape := ⟨2, ![4, 32]⟩
abbrev S4x512 : Shape := ⟨2, ![4, 512]⟩
abbrev S4x256x1 : Shape := ⟨3, ![4, 256, 1]⟩

abbrev nBuf : Space → Nat
  | .hbm => 8
  | .vmem => 8
  | .smem => 0
  | _ => 0

abbrev bufTy : (tb : Table) → Fin (tcTables nBuf tb) → BufTy
  | .hbm, ⟨0, _⟩ => ⟨S32x256x32x32, .f32⟩
  | .hbm, ⟨1, _⟩ => ⟨S32x256x32x32, .f32⟩
  | .hbm, ⟨2, _⟩ => ⟨S256x32, .f32⟩
  | .hbm, ⟨3, _⟩ => ⟨S32x512, .f32⟩
  | .hbm, ⟨4, _⟩ => ⟨S32x256x1024, .f32⟩
  | .hbm, ⟨5, _⟩ => ⟨S32x256x1024, .f32⟩
  | .hbm, ⟨6, _⟩ => ⟨S32x256x1024, .f32⟩
  | .hbm, ⟨7, _⟩ => ⟨S32x256x32x32, .f32⟩
  | .local _ .vmem, ⟨0, _⟩ => ⟨S256x32, .f32⟩
  | .local _ .vmem, ⟨1, _⟩ => ⟨S32x512, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | .local _ .vmem, ⟨5, _⟩ => ⟨S4x256x1024, .f32⟩
  | .local _ .vmem, ⟨6, _⟩ => ⟨S4x256x1024, .f32⟩
  | .local _ .vmem, ⟨7, _⟩ => ⟨S4x256x1024, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x32x32_S32x256x1024 : S32x256x32x32.ShapeCasts S32x256x1024
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x1024_S4x256 : S4x256x1024.Reduces [2] S4x256
  inb_S256x32_S256x32_0_0 : ∀ a, (![0, 0] : Fin 2 → Nat) a + S256x32.size a ≤ S256x32.size a
  h_S256x32 : 0 < S256x32.numel
  inb_S32x512_S32x512_0_0 : ∀ a, (![0, 0] : Fin 2 → Nat) a + S32x512.size a ≤ S32x512.size a
  h_S32x512 : 0 < S32x512.numel
  slices_S4x512_o0_0_S4x256 : S4x512.Slices ![0, 0] S4x256
  slices_S4x512_o0_256_S4x256 : S4x512.Slices ![0, 256] S4x256
  shapeCasts_S4x256_S4x256x1 : S4x256.ShapeCasts S4x256x1
  broadcasts_S4x256x1_S4x256x1024 : S4x256x1.Broadcasts S4x256x1024
  shapeCasts_S32x256x1024_S32x256x32x32 : S32x256x1024.ShapeCasts S32x256x32x32
  dot_S4x256_S256x32_S4x32_1_0_0_1_n_n_wf : DotDims.WF S4x256 S256x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S256x32.size a
  hwx0_0 : ∀ i : grid0.Coords, EltTy.bits .f32 = 32 ∨ (Rect.block (s := S256x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S32x256x1024.size a
  hwx0_2 : ∀ i : grid0.Coords, EltTy.bits .f32 = 32 ∨ (Rect.block (s := S32x256x1024) S4x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1024.size a ≤ S32x256x1024.size a
  hwx0_3 : ∀ i : grid0.Coords, EltTy.bits .f32 = 32 ∨ (Rect.block (s := S32x256x1024) S4x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x1024.size a ≤ S32x256x1024.size a
  hwx0_4 : ∀ i : grid0.Coords, EltTy.bits .f32 = 32 ∨ (Rect.block (s := S32x256x1024) S4x256x1024.size (cc0_transform_4 i) (hinb0_4 i)).WholeWords (EltTy.packing .f32)

variable [Facts₀]

def dot_S4x256_S256x32_S4x32_1_0_0_1_n_n : DotDims S4x256 S256x32 S4x32 where
  lhsContracting := [1]
  rhsContracting := [0]
  lhsNonContracting := [0]
  rhsNonContracting := [1]
  lhsBatch := []
  rhsBatch := []
  wf := dot_S4x256_S256x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_arg2) S256x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S256x32 : Shape := ⟨2, ![256, 32]⟩
abbrev S32x512 : Shape := ⟨2, ![32, 512]⟩
abbrev S8192x1024 : Shape := ⟨2, ![8192, 1024]⟩
abbrev S2x8192x1 : Shape := ⟨3, ![2, 8192, 1]⟩
abbrev S8192x128 : Shape := ⟨2, ![8192, 128]⟩
abbrev S1x8192x1 : Shape := ⟨3, ![1, 8192, 1]⟩
abbrev S8192x1 : Shape := ⟨2, ![8192, 1]⟩
abbrev S8192 : Shape := ⟨1, ![8192]⟩
abbrev S_ : Shape := ⟨0, ![]⟩
abbrev S32x256 : Shape := ⟨2, ![32, 256]⟩
abbrev S32x32 : Shape := ⟨2, ![32, 32]⟩
abbrev S32x2x256 : Shape := ⟨3, ![32, 2, 256]⟩
abbrev S32x1x256 : Shape := ⟨3, ![32, 1, 256]⟩
abbrev S2x32x256 : Shape := ⟨3, ![2, 32, 256]⟩

abbrev nBuf : Space → Nat
  | .hbm => 37
  | .vmem => 13
  | .smem => 0
  | _ => 0

abbrev bufTy : (tb : Table) → Fin (tcTables nBuf tb) → BufTy
  | .hbm, ⟨0, _⟩ => ⟨S32x256x32x32, .f32⟩
  | .hbm, ⟨1, _⟩ => ⟨S32x256x32x32, .f32⟩
  | .hbm, ⟨2, _⟩ => ⟨S256x32, .f32⟩
  | .hbm, ⟨3, _⟩ => ⟨S32x512, .f32⟩
  | .hbm, ⟨4, _⟩ => ⟨S8192x1024, .f32⟩
  | .hbm, ⟨5, _⟩ => ⟨S8192x1024, .f32⟩
  | .hbm, ⟨6, _⟩ => ⟨S2x8192x1, .f32⟩
  | .hbm, ⟨7, _⟩ => ⟨S_, .f32⟩
  | .hbm, ⟨8, _⟩ => ⟨S8192x1, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S32x256, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x512, .f32⟩
  | .hbm, ⟨18, _⟩ => ⟨S32x2x256, .f32⟩
  | .hbm, ⟨19, _⟩ => ⟨S_, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x1x256, .f32⟩
  | .hbm, ⟨25, _⟩ => ⟨S32x2x256, .f32⟩
  | .hbm, ⟨26, _⟩ => ⟨S32x2x256, .f32⟩
  | .hbm, ⟨27, _⟩ => ⟨S32x2x256, .f32⟩
  | .hbm, ⟨28, _⟩ => ⟨S_, .f32⟩
  | .hbm, ⟨29, _⟩ => ⟨S32x256, .f32⟩
  | .hbm, ⟨30, _⟩ => ⟨S32x1x256, .f32⟩
  | .hbm, ⟨31, _⟩ => ⟨S32x2x256, .f32⟩
  | .hbm, ⟨32, _⟩ => ⟨S32x2x256, .f32⟩
  | .hbm, ⟨33, _⟩ => ⟨S2x32x256, .f32⟩
  | .hbm, ⟨34, _⟩ => ⟨S2x8192x1, .f32⟩
  | .hbm, ⟨35, _⟩ => ⟨S8192x1024, .f32⟩
  | .hbm, ⟨36, _⟩ => ⟨S32x256x32x32, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8192x1, .f32⟩
  | .local _ .vmem, ⟨5, _⟩ => ⟨S1x8192x1, .f32⟩
  | .local _ .vmem, ⟨6, _⟩ => ⟨S2x8192x1, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2x8192x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x256x32x32_S8192x1024 : S32x256x32x32.ShapeCasts S8192x1024
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  shapeCasts_S8192x1_S1x8192x1 : S8192x1.ShapeCasts S1x8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reducesTo_S2x8192x1_S8192x1_d0 : S2x8192x1.ReducesTo [0] S8192x1
  h_S_ : 0 < S_.numel
  shapeCasts_S8192x1_S32x256 : S8192x1.ShapeCasts S32x256
  bcast_S_S32x256 : S_.BroadcastsInDim S32x256 (![] : Fin 0 → Fin S32x256.rank)
  bcast_S_S32x32 : S_.BroadcastsInDim S32x32 (![] : Fin 0 → Fin S32x32.rank)
  shapeCasts_S32x512_S32x2x256 : S32x512.ShapeCasts S32x2x256
  reducesTo_S32x2x256_S32x256_d1 : S32x2x256.ReducesTo [1] S32x256
  bcast_S32x256_S32x1x256_0_2 : S32x256.BroadcastsInDim S32x1x256 (![0, 2] : Fin 2 → Fin S32x1x256.rank)
  bcast_S32x1x256_S32x2x256_0_1_2 : S32x1x256.BroadcastsInDim S32x2x256 (![0, 1, 2] : Fin 3 → Fin S32x2x256.rank)
  transposes_S32x2x256_S2x32x256_1_0_2 : S32x2x256.Transposes [1, 0, 2] S2x32x256
  shapeCasts_S2x32x256_S2x8192x1 : S2x32x256.ShapeCasts S2x8192x1
  inb_S2x8192x1_S1x8192x1_0_0_0 : ∀ a, (![0, 0, 0] : Fin 3 → Nat) a + S1x8192x1.size a ≤ S2x8192x1.size a
  broadcasts_S8192x1_S8192x128 : S8192x1.Broadcasts S8192x128
  inb_S2x8192x1_S1x8192x1_1_0_0 : ∀ a, (![1, 0, 0] : Fin 3 → Nat) a + S1x8192x1.size a ≤ S2x8192x1.size a
  shapeCasts_S8192x1024_S32x256x32x32 : S8192x1024.ShapeCasts S32x256x32x32
  dot_S32x256_S256x32_S32x32_1_0_0_1_n_n_wf : DotDims.WF S32x256 S256x32 S32x32 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x1024.size a
  hwx0_0 : ∀ i : grid0.Coords, EltTy.bits .f32 = 32 ∨ (Rect.block (s := S8192x1024) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x1024.size a
  hwx0_1 : ∀ i : grid0.Coords, EltTy.bits .f32 = 32 ∨ (Rect.block (s := S8192x1024) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x1.size a ≤ S2x8192x1.size a
  hwx0_2 : ∀ i : grid0.Coords, EltTy.bits .f32 = 32 ∨ (Rect.block (s := S2x8192x1) S1x8192x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x8192x1.size a ≤ S2x8192x1.size a
  hwx1_0 : ∀ i : grid1.Coords, EltTy.bits .f32 = 32 ∨ (Rect.block (s := S2x8192x1) S2x8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x1024.size a
  hwx1_1 : ∀ i : grid1.Coords, EltTy.bits .f32 = 32 ∨ (Rect.block (s := S8192x1024) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x1024.size a
  hwx1_2 : ∀ i : grid1.Coords, EltTy.bits .f32 = 32 ∨ (Rect.block (s := S8192x1024) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x1024.size a
  hwx1_3 : ∀ i : grid1.Coords, EltTy.bits .f32 = 32 ∨ (Rect.block (s := S8192x1024) S8192x128.size (cc1_transform_3 i) (hinb1_3 i)).WholeWords (EltTy.packing .f32)

variable [Facts₀]

def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2x8192x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Fusion.lean ====
/-
  Two feature maps x0, x1 of shape [32, 256, 32, 32] are fused by a learned, per-channel, two-way gate.
  For one batch element write y0, y1 for its two maps with the 32 x 32 positions flattened to 1024
  (position s = 32 h + w). The pooled vector is the mean over positions of y0 + y1, taken as the sum
  times the constant kap = 1/1024. A two-layer map follows: hid = max (pooled . w1, 0), then 512 logits
  hid . w2, read as two branches of 256 channels (branch k, channel ch at column 256 k + ch). The gate is
  the softmax over the two branches, and the result is y0 * gate0 + y1 * gate1.

  Two spellings of this are stated here, over the extended reals, as functions of one batch element:
    rowK: pooled as (sum y0 + sum y1) * kap; the gate as the logistic of the difference of the two logits;
          the result as y1 + gate * (y0 - y1).
    rowR: pooled from eight partial sums of 128 positions each, accumulated four by four from zero in two
          halves and the halves added from zero; the gate as exp (l_k - M) / (0 + sum_k exp (l_k - M)) with
          M the running maximum from -inf; the result as y0 * gate0 + y1 * gate1.
  resK and resR are the two spellings over whole [32, 256, 32, 32] arrays.
-/
import Idealize.ShloMosaic.PureOps.Ideal
import Idealize.ShloMosaic.Lib.ValueIdx

noncomputable section

open scoped BigOperators
open Idealize.ShloMosaic Idealize.ShloMosaic.ValueIdx

namespace Skf

/-- One batch element's feature map: 256 channels by 1024 flattened positions. -/
abbrev Row := Fin 256 → Fin 1024 → EReal
/-- The first layer's weights, channel by hidden unit. -/
abbrev Mat1 := Fin 256 → Fin 32 → EReal
/-- The second layer's weights, hidden unit by logit column. -/
abbrev Mat2 := Fin 32 → Fin 512 → EReal

/-- The pooling constant 1/1024 as the f32 word both programs carry. -/
def kap : EReal := Ideal.ofBits .f32 0x3A800000#32

/-- Position l of tile i of half c: 128 (4 c + i) + l. -/
def pos (c : Fin 2) (i : Fin 4) (l : Fin 128) : Fin 1024 :=
  ⟨(4 * c.val + i.val) * 128 + l.val, by have := c.isLt; have := i.isLt; have := l.isLt; omega⟩

/-- Logit column of branch k, channel ch: 256 k + ch. -/
def br (k : Fin 2) (ch : Fin 256) : Fin 512 :=
  ⟨256 * k.val + ch.val, by have := k.isLt; have := ch.isLt; omega⟩

/-- Row 256 b + ch of the [8192, 1024] layout of batch b, channel ch. -/
def rc (b : Fin 32) (ch : Fin 256) : Fin 8192 :=
  ⟨256 * b.val + ch.val, by have := b.isLt; have := ch.isLt; omega⟩

/-- Flattened position 32 h + w. -/
def sp (h w : Fin 32) : Fin 1024 := ⟨32 * h.val + w.val, by have := h.isLt; have := w.isLt; omega⟩
/-- The row h = s / 32 of a flattened position. -/
def ph (s : Fin 1024) : Fin 32 := ⟨s.val / 32, by have := s.isLt; omega⟩
/-- The column w = s % 32 of a flattened position. -/
def pw (s : Fin 1024) : Fin 32 := ⟨s.val % 32, by omega⟩

variable (κ : EReal)

/-! ## The pooled vector, two ways -/

/-- The sum of y0 plus the sum of y1 over all positions, times κ. -/
def poolK (y0 y1 : Row) (ch : Fin 256) : EReal := ((∑ s, y0 ch s) + (∑ s, y1 ch s)) * κ

/-- One tile's sum of u0 + u1 over its 128 positions. -/
def tile (u0 u1 : Fin 1024 → EReal) (c : Fin 2) (i : Fin 4) : EReal :=
  ∑ l : Fin 128, (u0 (pos c i l) + u1 (pos c i l))

/-- One half's partial sum: its four tiles accumulated in order from zero. -/
def part (u0 u1 : Fin 1024 → EReal) (c : Fin 2) : EReal :=
  (((0 + tile u0 u1 c 0) + tile u0 u1 c 1) + tile u0 u1 c 2) + tile u0 u1 c 3

/-- The pooled vector from the two halves' partial sums: zero plus their sum, times κ. -/
def poolOfParts (P : Fin 2 → Fin 256 → EReal) (ch : Fin 256) : EReal := (0 + ∑ c : Fin 2, P c ch) * κ

/-- The pooled vector by partial sums. -/
def poolR (y0 y1 : Row) : Fin 256 → EReal := poolOfParts κ fun c ch => part (y0 ch) (y1 ch) c

/-! ## The two-layer map -/

/-- The hidden layer: the pooled vector against w1, clamped below at zero. -/
def hid (p : Fin 256 → EReal) (w1 : Mat1) (j : Fin 32) : EReal := max (∑ ch, p ch * w1 ch j) 0

/-- The 512 logits: the hidden layer against w2. -/
def logit (p : Fin 256 → EReal) (w1 : Mat1) (w2 : Mat2) (n : Fin 512) : EReal := ∑ j, hid p w1 j * w2 j n

/-! ## The gate and the result, two ways -/

/-- The result with the gate as a logistic of the logits' difference. -/
def rowK (y0 y1 : Row) (w1 : Mat1) (w2 : Mat2) (ch : Fin 256) (s : Fin 1024) : EReal :=
  y1 ch s + Ideal.logistic (logit (poolK κ y0 y1) w1 w2 (br 0 ch) - logit (poolK κ y0 y1) w1 w2 (br 1 ch))
    * (y0 ch s - y1 ch s)

/-- The running maximum of two logits from -inf, once more against -inf. -/
def smax (l : Fin 2 → EReal) : EReal := max ⊥ ((Finset.univ : Finset (Fin 2)).fold max ⊥ l)

/-- The two-way softmax, shifted by the maximum, the denominator summed from zero. -/
def attn (l : Fin 2 → EReal) (k : Fin 2) : EReal :=
  Ideal.div (Ideal.exp (l k - smax l)) (0 + ∑ k' : Fin 2, Ideal.exp (l k' - smax l))

/-- The gate of branch k, channel ch, from a pooled vector. -/
def attnOf (p : Fin 256 → EReal) (w1 : Mat1) (w2 : Mat2) (k : Fin 2) (ch : Fin 256) : EReal :=
  attn (fun k' => logit p w1 w2 (br k' ch)) k

/-- The gate-weighted sum of two values. -/
def mix (x0 x1 g0 g1 : EReal) : EReal := x0 * g0 + x1 * g1

/-- The result as the gate-weighted sum of the two maps. -/
def rowR (y0 y1 : Row) (w1 : Mat1) (w2 : Mat2) (ch : Fin 256) (s : Fin 1024) : EReal :=
  y0 ch s * attnOf (poolR κ y0 y1) w1 w2 0 ch + y1 ch s * attnOf (poolR κ y0 y1) w1 w2 1 ch

/-! ## Whole arrays -/

abbrev SF : Shape := ⟨4, ![32, 256, 32, 32]⟩
abbrev SW1 : Shape := ⟨2, ![256, 32]⟩
abbrev SW2 : Shape := ⟨2, ![32, 512]⟩

/-- Batch element b of a [32, 256, 32, 32] array, positions flattened. -/
def rowOf (a : SF.Idx → EReal) (b : Fin 32) : Row := fun ch s => a (ix4 b ch (ph s) (pw s))
def mat1 (a : SW1.Idx → EReal) : Mat1 := fun ch j => a (ix2 ch j)
def mat2 (a : SW2.Idx → EReal) : Mat2 := fun j n => a (ix2 j n)

/-- The first spelling over whole arrays, at explicit coordinates. -/
def resK (a0 a1 : SF.Idx → EReal) (a2 : SW1.Idx → EReal) (a3 : SW2.Idx → EReal) : SF.Idx → EReal :=
  fun i => rowK κ (rowOf a0 (i 0)) (rowOf a1 (i 0)) (mat1 a2) (mat2 a3) (i 1) (sp (i 2) (i 3))

/-- The second spelling over whole arrays. -/
def resR (a0 a1 : SF.Idx → EReal) (a2 : SW1.Idx → EReal) (a3 : SW2.Idx → EReal) : SF.Idx → EReal :=
  fun i => rowR κ (rowOf a0 (i 0)) (rowOf a1 (i 0)) (mat1 a2) (mat2 a3) (i 1) (sp (i 2) (i 3))

end Skf

end
-- ==== Proof.KernelBody.lean ====
/-
  The fused body's one store, read at an element. Block element (p, ch, s) of the [4, 256, 1024] output
  block is the first spelling of the fusion (Skf.rowK) of rows p of the two input blocks: the lane sums are
  sums over the 1024 positions, the two matrix products into zero are plain sums over the contracted axis,
  the two column slices of the logits are branch 0 and branch 1, and the [4, 256] gate is laid along the
  positions by a cast to [4, 256, 1] and a broadcast.
-/
import proofs.«113176_g2000706281692390_pallasbulk_37_2_alg».proof.Proof.Gen.KernelIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx
open scoped BigOperators

namespace Cert.KernelIdeal.Val

open Cert.KernelIdeal Cert.KernelIdeal.Gen

/-! ## The lane sum -/

/-- The sum over the positions: the reduction over axis 2 of a [4, 256, 1024] block, read at (p, ch), is the sum over the
    1024 positions s of the block at (p, ch, s). -/
private theorem laneSum_apply (x : FVec Ideal S4x256x1024 .f32) (hφ : FKind.Formats .f32)
    (hacc : (0x00000000#32 : BitVec 32) = FKind.add.neutral .f32 hφ) (p : Fin 4) (ch : Fin 256) :
    multiReduction (F := Ideal) .add [2] S4x256 x 0x00000000#32 reduces_S4x256x1024_S4x256 hφ hacc (ix2 p ch)
      = ∑ s : Fin 1024, x (ix3 p ch s) := by
  refine (Ideal.multiReduction_add_single x _ reduces_S4x256x1024_S4x256 hφ hacc (ix2 p ch)).trans ?_
  refine Finset.sum_congr rfl fun s _ => congrArg x ?_
  funext a
  match a with
  | ⟨0, _⟩ => rfl
  | ⟨1, _⟩ => rfl
  | ⟨2, _⟩ => rfl

/-! ## The two matrix products into zero -/

private theorem lhs1_0 (j : S4x32.Idx) (k : dot_S4x256_S256x32_S4x32_1_0_0_1_n_n.contr.Idx) :
    (dot_S4x256_S256x32_S4x32_1_0_0_1_n_n.lhsIdx j k 0 : ℕ) = j 0 := by
  simp [DotDims.lhsIdx, dot_S4x256_S256x32_S4x32_1_0_0_1_n_n]; rfl
private theorem lhs1_1 (j : S4x32.Idx) (k : dot_S4x256_S256x32_S4x32_1_0_0_1_n_n.contr.Idx) :
    (dot_S4x256_S256x32_S4x32_1_0_0_1_n_n.lhsIdx j k 1 : ℕ) = k ⟨0, by decide⟩ := by
  simp [DotDims.lhsIdx, dot_S4x256_S256x32_S4x32_1_0_0_1_n_n]; rfl
private theorem rhs1_0 (j : S4x32.Idx) (k : dot_S4x256_S256x32_S4x32_1_0_0_1_n_n.contr.Idx) :
    (dot_S4x256_S256x32_S4x32_1_0_0_1_n_n.rhsIdx j k 0 : ℕ) = k ⟨0, by decide⟩ := by
  simp [DotDims.rhsIdx, dot_S4x256_S256x32_S4x32_1_0_0_1_n_n]; rfl
private theorem rhs1_1 (j : S4x32.Idx) (k : dot_S4x256_S256x32_S4x32_1_0_0_1_n_n.contr.Idx) :
    (dot_S4x256_S256x32_S4x32_1_0_0_1_n_n.rhsIdx j k 1 : ℕ) = j 1 := by
  simp [DotDims.rhsIdx, dot_S4x256_S256x32_S4x32_1_0_0_1_n_n]; rfl

/-- The first product into zero, [4, 256] by [256, 32], at (p, j): the sum over the 256 channels. -/
private theorem mm1_apply (A : FVec Ideal S4x256 .f32) (B : FVec Ideal S256x32 .f32) (p : Fin 4) (j : Fin 32) :
    matmul (F := Ideal) dot_S4x256_S256x32_S4x32_1_0_0_1_n_n none A B (constant S4x32 .f32 0x00000000#32) (ix2 p j)
      = ∑ ch : Fin 256, A (ix2 p ch) * B (ix2 ch j) := by
  refine (Ideal.matmul_constant_zero_apply dot_S4x256_S256x32_S4x32_1_0_0_1_n_n none A B (ix2 p j)).trans ?_
  rw [← Equiv.sum_comp (contrEquiv1 dot_S4x256_S256x32_S4x32_1_0_0_1_n_n 256 rfl rfl).symm]
  refine Finset.sum_congr rfl fun c _ => ?_
  have hc := contrEquiv1_symm_val dot_S4x256_S256x32_S4x32_1_0_0_1_n_n 256 rfl rfl c
  have hl : dot_S4x256_S256x32_S4x32_1_0_0_1_n_n.lhsIdx (ix2 p j)
      ((contrEquiv1 dot_S4x256_S256x32_S4x32_1_0_0_1_n_n 256 rfl rfl).symm c) = ix2 p c :=
    Shape.idx_ext₂ (lhs1_0 _ _) ((lhs1_1 _ _).trans hc)
  have hr : dot_S4x256_S256x32_S4x32_1_0_0_1_n_n.rhsIdx (ix2 p j)
      ((contrEquiv1 dot_S4x256_S256x32_S4x32_1_0_0_1_n_n 256 rfl rfl).symm c) = ix2 c j :=
    Shape.idx_ext₂ ((rhs1_0 _ _).trans hc) (rhs1_1 _ _)
  rw [hl, hr]

private theorem lhs2_0 (j : S4x512.Idx) (k : dot_S4x32_S32x512_S4x512_1_0_0_1_n_n.contr.Idx) :
    (dot_S4x32_S32x512_S4x512_1_0_0_1_n_n.lhsIdx j k 0 : ℕ) = j 0 := by
  simp [DotDims.lhsIdx, dot_S4x32_S32x512_S4x512_1_0_0_1_n_n]; rfl
private theorem lhs2_1 (j : S4x512.Idx) (k : dot_S4x32_S32x512_S4x512_1_0_0_1_n_n.contr.Idx) :
    (dot_S4x32_S32x512_S4x512_1_0_0_1_n_n.lhsIdx j k 1 : ℕ) = k ⟨0, by decide⟩ := by
  simp [DotDims.lhsIdx, dot_S4x32_S32x512_S4x512_1_0_0_1_n_n]; rfl
private theorem rhs2_0 (j : S4x512.Idx) (k : dot_S4x32_S32x512_S4x512_1_0_0_1_n_n.contr.Idx) :
    (dot_S4x32_S32x512_S4x512_1_0_0_1_n_n.rhsIdx j k 0 : ℕ) = k ⟨0, by decide⟩ := by
  simp [DotDims.rhsIdx, dot_S4x32_S32x512_S4x512_1_0_0_1_n_n]; rfl
private theorem rhs2_1 (j : S4x512.Idx) (k : dot_S4x32_S32x512_S4x512_1_0_0_1_n_n.contr.Idx) :
    (dot_S4x32_S32x512_S4x512_1_0_0_1_n_n.rhsIdx j k 1 : ℕ) = j 1 := by
  simp [DotDims.rhsIdx, dot_S4x32_S32x512_S4x512_1_0_0_1_n_n]; rfl

/-- The second product into zero, [4, 32] by [32, 512], at (p, n): the sum over the 32 hidden units. -/
private theorem mm2_apply (A : FVec Ideal S4x32 .f32) (B : FVec Ideal S32x512 .f32) (p : Fin 4) (n : Fin 512) :
    matmul (F := Ideal) dot_S4x32_S32x512_S4x512_1_0_0_1_n_n none A B (constant S4x512 .f32 0x00000000#32) (ix2 p n)
      = ∑ j : Fin 32, A (ix2 p j) * B (ix2 j n) := by
  refine (Ideal.matmul_constant_zero_apply dot_S4x32_S32x512_S4x512_1_0_0_1_n_n none A B (ix2 p n)).trans ?_
  rw [← Equiv.sum_comp (contrEquiv1 dot_S4x32_S32x512_S4x512_1_0_0_1_n_n 32 rfl rfl).symm]
  refine Finset.sum_congr rfl fun c _ => ?_
  have hc := contrEquiv1_symm_val dot_S4x32_S32x512_S4x512_1_0_0_1_n_n 32 rfl rfl c
  have hl : dot_S4x32_S32x512_S4x512_1_0_0_1_n_n.lhsIdx (ix2 p n)
      ((contrEquiv1 dot_S4x32_S32x512_S4x512_1_0_0_1_n_n 32 rfl rfl).symm c) = ix2 p c :=
    Shape.idx_ext₂ (lhs2_0 _ _) ((lhs2_1 _ _).trans hc)
  have hr : dot_S4x32_S32x512_S4x512_1_0_0_1_n_n.rhsIdx (ix2 p n)
      ((contrEquiv1 dot_S4x32_S32x512_S4x512_1_0_0_1_n_n 32 rfl rfl).symm c) = ix2 c n :=
    Shape.idx_ext₂ ((rhs2_0 _ _).trans hc) (rhs2_1 _ _)
  rw [hl, hr]

/-! ## The stages of the stored value -/

/-- The pooled block: the two lane sums added, times the pooling constant. -/
private def poolV (v1 v3 : FVec Ideal S4x256x1024 .f32) : FVec Ideal S4x256 .f32 :=
  mulf (addf (multiReduction .add [2] S4x256 v1 0x00000000#32 reduces_S4x256x1024_S4x256 (.inl rfl) rfl)
      (multiReduction .add [2] S4x256 v3 0x00000000#32 reduces_S4x256x1024_S4x256 (.inl rfl) rfl))
    (broadcast S4x256 (Scalar.ofBits .f32 0x3A800000#32 : Ideal .f32))

/-- The hidden block: the pooled block against the first weights, clamped below at zero. -/
private def hidV (v8 : FVec Ideal S4x256 .f32) (v9 : FVec Ideal S256x32 .f32) : FVec Ideal S4x32 .f32 :=
  maximumf (matmul dot_S4x256_S256x32_S4x32_1_0_0_1_n_n none v8 v9 (constant S4x32 .f32 0x00000000#32))
    (broadcast S4x32 (Scalar.ofBits .f32 0x00000000#32 : Ideal .f32))

/-- The logits: the hidden block against the second weights. -/
private def logV (v12 : FVec Ideal S4x32 .f32) (v13 : FVec Ideal S32x512 .f32) : FVec Ideal S4x512 .f32 :=
  matmul dot_S4x32_S32x512_S4x512_1_0_0_1_n_n none v12 v13 (constant S4x512 .f32 0x00000000#32)

/-- The gate laid along the positions: the logistic of the difference of the two column halves of the logits, as a
    [4, 256, 1] column repeated over the 1024 positions. -/
private def gateV (v14 : FVec Ideal S4x512 .f32) : FVec Ideal S4x256x1024 .f32 :=
  broadcastTo S4x256x1024
    (shapeCast S4x256x1
      (logistic (subf (extractStridedSlice S4x256 ![0, 0] v14 slices_S4x512_o0_0_S4x256)
        (extractStridedSlice S4x256 ![0, 256] v14 slices_S4x512_o0_256_S4x256)))
      shapeCasts_S4x256_S4x256x1)
    broadcasts_S4x256x1_S4x256x1024

/-- The stored value is these stages composed. -/
private theorem pay_unfold (x0 x1 : Vec Ideal S4x256x1024 .f32) (w1 : Vec Ideal S256x32 .f32) (w2 : Vec Ideal S32x512 .f32) :
    k0_pay1 (F := Ideal) x0 x1 w1 w2
      = addf (shapeCast S4x256x1024 x1 shapeCasts_S4x256x1024_S4x256x1024)
          (mulf
            (gateV (logV (hidV (poolV (shapeCast S4x256x1024 x0 shapeCasts_S4x256x1024_S4x256x1024)
              (shapeCast S4x256x1024 x1 shapeCasts_S4x256x1024_S4x256x1024)) w1) w2))
            (subf (shapeCast S4x256x1024 x0 shapeCasts_S4x256x1024_S4x256x1024)
              (shapeCast S4x256x1024 x1 shapeCasts_S4x256x1024_S4x256x1024))) := rfl

/-- The pooled block at (p, ch) is the fusion's pooled vector of row p at channel ch. -/
private theorem poolV_apply (x0 x1 : FVec Ideal S4x256x1024 .f32) (p : Fin 4) (ch : Fin 256) :
    poolV x0 x1 (ix2 p ch)
      = Skf.poolK Skf.kap (fun ch s => x0 (ix3 p ch s)) (fun ch s => x1 (ix3 p ch s)) ch := by
  unfold poolV Skf.poolK Skf.kap
  show (multiReduction (F := Ideal) .add [2] S4x256 x0 0x00000000#32 reduces_S4x256x1024_S4x256 (.inl rfl) rfl (ix2 p ch)
      + multiReduction (F := Ideal) .add [2] S4x256 x1 0x00000000#32 reduces_S4x256x1024_S4x256 (.inl rfl) rfl (ix2 p ch))
      * Ideal.ofBits .f32 0x3A800000#32 = _
  rw [laneSum_apply x0 (.inl rfl) rfl p ch, laneSum_apply x1 (.inl rfl) rfl p ch]

/-- The hidden block at (p, j), over any pooled block P. -/
private theorem hidV_apply (P : FVec Ideal S4x256 .f32) (w1 : FVec Ideal S256x32 .f32) (p : Fin 4) (j : Fin 32) :
    hidV P w1 (ix2 p j) = max (∑ ch : Fin 256, P (ix2 p ch) * w1 (ix2 ch j)) 0 := by
  unfold hidV
  show max (matmul (F := Ideal) dot_S4x256_S256x32_S4x32_1_0_0_1_n_n none P w1 (constant S4x32 .f32 0x00000000#32) (ix2 p j))
      (Ideal.ofBits .f32 0x00000000#32) = _
  rw [mm1_apply, Ideal.ofBits_zero_f32]

/-- The logits at (p, n), over any hidden block H. -/
private theorem logV_apply (H : FVec Ideal S4x32 .f32) (w2 : FVec Ideal S32x512 .f32) (p : Fin 4) (n : Fin 512) :
    logV H w2 (ix2 p n) = ∑ j : Fin 32, H (ix2 p j) * w2 (ix2 j n) := by
  unfold logV
  exact mm2_apply H w2 p n

/-- The gate at (p, ch, s), over any logits L: the logistic of column ch less column 256 + ch. -/
private theorem gateV_apply (L : FVec Ideal S4x512 .f32) (p : Fin 4) (ch : Fin 256) (s : Fin 1024) :
    gateV L (ix3 p ch s) = Ideal.logistic (L (ix2 p (Skf.br 0 ch)) - L (ix2 p (Skf.br 1 ch))) := by
  unfold gateV
  refine (broadcastTo_apply _ broadcasts_S4x256x1_S4x256x1024 (ix3 p ch s) (ix3 p ch (0 : Fin 1)) ?_).trans ?_
  · intro a
    match a with
    | ⟨0, _⟩ => rfl
    | ⟨1, _⟩ => rfl
    | ⟨2, _⟩ => rfl
  refine (shapeCast_apply _ shapeCasts_S4x256_S4x256x1 (ix3 p ch (0 : Fin 1)) (ix2 p ch) ?_).trans ?_
  · rw [Shape.rowMajor_val_two, Shape.rowMajor_val_three]
    show p.val * 256 + ch.val = (p.val * 256 + ch.val) * 1 + 0
    omega
  show Ideal.logistic (extractStridedSlice S4x256 ![0, 0] L slices_S4x512_o0_0_S4x256 (ix2 p ch)
      - extractStridedSlice S4x256 ![0, 256] L slices_S4x512_o0_256_S4x256 (ix2 p ch)) = _
  rw [slice2_axis1_apply 0 L slices_S4x512_o0_0_S4x256 p ch (Skf.br 0 ch) (by simp [Skf.br]),
    slice2_axis1_apply 256 L slices_S4x512_o0_256_S4x256 p ch (Skf.br 1 ch) (by simp [Skf.br])]

/-- The stored value at block element (p, ch, s) is the fusion's first spelling of row p of the blocks. -/
theorem pay_apply (x0 x1 : Vec Ideal S4x256x1024 .f32) (w1 : Vec Ideal S256x32 .f32) (w2 : Vec Ideal S32x512 .f32)
    (p : Fin 4) (ch : Fin 256) (s : Fin 1024) :
    k0_pay1 (F := Ideal) x0 x1 w1 w2 (ix3 p ch s)
      = Skf.rowK Skf.kap (fun ch s => x0 (ix3 p ch s)) (fun ch s => x1 (ix3 p ch s)) (Skf.mat1 w1) (Skf.mat2 w2) ch s := by
  rw [pay_unfold, shapeCast_self x0, shapeCast_self x1]
  show x1 (ix3 p ch s) + gateV (logV (hidV (poolV x0 x1) w1) w2) (ix3 p ch s) * (x0 (ix3 p ch s) - x1 (ix3 p ch s)) = _
  rw [gateV_apply]
  unfold Skf.rowK Skf.logit Skf.hid Skf.mat1 Skf.mat2
  simp only [logV_apply, hidV_apply, poolV_apply]

end Cert.KernelIdeal.Val

end
-- ==== Proof.KernelFinal.lean ====
/-
  The fused kernel's result array, before the last reshape. The eight grid points write disjoint
  [4, 256, 1024] blocks, block t holding batch elements 4 t .. 4 t + 3 whole, and the two weight arrays
  are read whole at every point; block element (p, ch, s) is the fusion's first spelling of row p of the
  input blocks, which is batch element 4 t + p of the arrays. So entry (b, ch, s) of the [32, 256, 1024]
  array after the region is the first spelling of batch element b of the two arrays the region reads.
-/
import proofs.«113176_g2000706281692390_pallasbulk_37_2_alg».proof.Proof.KernelBody

noncomputable section

open Idealize.ShloMosaic Idealize.ShloMosaic.TcCoe Idealize.ShloMosaic.ValueIdx Idealize.SL.Sem
open Idealize.ShloMosaic.Pipeline (Dat)
open scoped BigOperators

namespace Cert.KernelIdeal.Val

open Cert.KernelIdeal Cert.KernelIdeal.Gen

variable (m : (ℓ : Loc nD τ sig) → Buf (Elt Ideal) ℓ)

/-! ## Where each block sits -/

/-- A rectangle over a whole rank-3 buffer starts at the origin. -/
private theorem origin3 : (![0, 0, 0] : Fin 3 → Nat) = fun _ => 0 := funext fun a => by fin_cases a <;> rfl
/-- A rectangle over a whole rank-2 buffer starts at the origin. -/
private theorem origin2 : (![0, 0] : Fin 2 → Nat) = fun _ => 0 := funext fun a => by fin_cases a <;> rfl

/-- At grid point t the output's block index is (t, 0, 0). -/
private theorem outIndex : ∀ t : Fin cfg0.N, win0_4.index t (0 : Fin 3) = t.val
    ∧ win0_4.index t (1 : Fin 3) = 0 ∧ win0_4.index t (2 : Fin 3) = 0 :=
  (by decide +kernel : ∀ t : Fin grid0.N, _)
/-- So is the first feature map's, -/
private theorem map0Index : ∀ t : Fin cfg0.N, win0_2.index t (0 : Fin 3) = t.val
    ∧ win0_2.index t (1 : Fin 3) = 0 ∧ win0_2.index t (2 : Fin 3) = 0 :=
  (by decide +kernel : ∀ t : Fin grid0.N, _)
/-- and the second's. -/
private theorem map1Index : ∀ t : Fin cfg0.N, win0_3.index t (0 : Fin 3) = t.val
    ∧ win0_3.index t (1 : Fin 3) = 0 ∧ win0_3.index t (2 : Fin 3) = 0 :=
  (by decide +kernel : ∀ t : Fin grid0.N, _)
/-- The first layer's weights are read at block index (0, 0) at every point, -/
private theorem weights1Index : ∀ t : Fin cfg0.N, win0_0.index t (0 : Fin 2) = 0 ∧ win0_0.index t (1 : Fin 2) = 0 :=
  (by decide +kernel : ∀ t : Fin grid0.N, _)
/-- and so are the second layer's. -/
private theorem weights2Index : ∀ t : Fin cfg0.N, win0_1.index t (0 : Fin 2) = 0 ∧ win0_1.index t (1 : Fin 2) = 0 :=
  (by decide +kernel : ∀ t : Fin grid0.N, _)

/-! ## The input blocks as parts of their arrays -/

/-- Element (p, ch, s) of the first feature map's block at point t is element (4 t + p, ch, s) of the map. -/
private theorem map0_block_apply (c : Dev nD) (t : Fin cfg0.N) (x : S4x256x1024.Idx) (k : S32x256x1024.Idx)
    (h0 : (k 0).val = 4 * t.val + (x 0).val) (h1 : (k 1).val = (x 1).val) (h2 : (k 2).val = (x 2).val) :
    (iblk m c 2 t : Vec Ideal S4x256x1024 .f32) x = (V m c main_v0 : Vec Ideal S32x256x1024 .f32) k := by
  obtain ⟨e0, e1, e2⟩ := map0Index t
  unfold iblk
  rw [View.read_apply]
  show (V m c main_v0 : Vec Ideal S32x256x1024 .f32) _ = (V m c main_v0 : Vec Ideal S32x256x1024 .f32) k
  refine congrArg (V m c main_v0 : Vec Ideal S32x256x1024 .f32) ?_
  funext a
  apply Fin.ext
  match a with
  | ⟨0, _⟩ => show win0_2.index t (0 : Fin 3) * 4 + 1 * (x 0).val = (k 0).val; omega
  | ⟨1, _⟩ => show win0_2.index t (1 : Fin 3) * 256 + 1 * (x 1).val = (k 1).val; omega
  | ⟨2, _⟩ => show win0_2.index t (2 : Fin 3) * 1024 + 1 * (x 2).val = (k 2).val; omega

/-- The same for the second feature map. -/
private theorem map1_block_apply (c : Dev nD) (t : Fin cfg0.N) (x : S4x256x1024.Idx) (k : S32x256x1024.Idx)
    (h0 : (k 0).val = 4 * t.val + (x 0).val) (h1 : (k 1).val = (x 1).val) (h2 : (k 2).val = (x 2).val) :
    (iblk m c 3 t : Vec Ideal S4x256x1024 .f32) x = (V m c main_v1 : Vec Ideal S32x256x1024 .f32) k := by
  obtain ⟨e0, e1, e2⟩ := map1Index t
  unfold iblk
  rw [View.read_apply]
  show (V m c main_v1 : Vec Ideal S32x256x1024 .f32) _ = (V m c main_v1 : Vec Ideal S32x256x1024 .f32) k
  refine congrArg (V m c main_v1 : Vec Ideal S32x256x1024 .f32) ?_
  funext a
  apply Fin.ext
  match a with
  | ⟨0, _⟩ => show win0_3.index t (0 : Fin 3) * 4 + 1 * (x 0).val = (k 0).val; omega
  | ⟨1, _⟩ => show win0_3.index t (1 : Fin 3) * 256 + 1 * (x 1).val = (k 1).val; omega
  | ⟨2, _⟩ => show win0_3.index t (2 : Fin 3) * 1024 + 1 * (x 2).val = (k 2).val; omega

/-- The first layer's weights' block at any point is the whole weight array. -/
private theorem weights1_block (c : Dev nD) (t : Fin cfg0.N) :
    (iblk m c 0 t : Vec Ideal S256x32 .f32) = (V m c main_arg2 : Vec Ideal S256x32 .f32) := by
  obtain ⟨e0, e1⟩ := weights1Index t
  funext x
  unfold iblk
  rw [View.read_apply]
  show (V m c main_arg2 : Vec Ideal S256x32 .f32) _ = (V m c main_arg2 : Vec Ideal S256x32 .f32) x
  refine congrArg (V m c main_arg2 : Vec Ideal S256x32 .f32) ?_
  funext a
  apply Fin.ext
  match a with
  | ⟨0, _⟩ => show win0_0.index t (0 : Fin 2) * 256 + 1 * (x 0).val = (x 0).val; omega
  | ⟨1, _⟩ => show win0_0.index t (1 : Fin 2) * 32 + 1 * (x 1).val = (x 1).val; omega

/-- The second layer's weights' block at any point is the whole weight array. -/
private theorem weights2_block (c : Dev nD) (t : Fin cfg0.N) :
    (iblk m c 1 t : Vec Ideal S32x512 .f32) = (V m c main_arg3 : Vec Ideal S32x512 .f32) := by
  obtain ⟨e0, e1⟩ := weights2Index t
  funext x
  unfold iblk
  rw [View.read_apply]
  show (V m c main_arg3 : Vec Ideal S32x512 .f32) _ = (V m c main_arg3 : Vec Ideal S32x512 .f32) x
  refine congrArg (V m c main_arg3 : Vec Ideal S32x512 .f32) ?_
  funext a
  apply Fin.ext
  match a with
  | ⟨0, _⟩ => show win0_1.index t (0 : Fin 2) * 32 + 1 * (x 0).val = (x 0).val; omega
  | ⟨1, _⟩ => show win0_1.index t (1 : Fin 2) * 512 + 1 * (x 1).val = (x 1).val; omega

/-! ## The result array as one function of the arrays the region reads -/

/-- Entry (b, ch, s) of the result: the first spelling of batch element b of the two feature maps. -/
private def entryOf (c : Dev nD) (b : Fin 32) (ch : Fin 256) (s : Fin 1024) : EReal :=
  Skf.rowK Skf.kap (fun ch s => (V m c main_v0 : Vec Ideal S32x256x1024 .f32) (ix3 b ch s))
    (fun ch s => (V m c main_v1 : Vec Ideal S32x256x1024 .f32) (ix3 b ch s))
    (Skf.mat1 (V m c main_arg2)) (Skf.mat2 (V m c main_arg3)) ch s

/-- Equal coordinates give the same entry. -/
private theorem entryOf_congr (c : Dev nD) {b b' : Fin 32} {ch ch' : Fin 256} {s s' : Fin 1024}
    (hb : b.val = b'.val) (hch : ch.val = ch'.val) (hs : s.val = s'.val) :
    entryOf m c b ch s = entryOf m c b' ch' s' := by
  obtain rfl := Fin.ext hb
  obtain rfl := Fin.ext hch
  obtain rfl := Fin.ext hs
  rfl

/-- The whole result array, entry by entry. -/
private def resultArray (c : Dev nD) : Vec Ideal S32x256x1024 .f32 := fun i => entryOf m c (i 0) (i 1) (i 2)

/-- Block element (p, ch, s) that point t leaves is entry (4 t + p, ch, s) of the result array: the stored
    value is the first spelling of row p of the blocks, and row p of a block is batch element 4 t + p. -/
private theorem stored_entry (c : Dev nD) (t : Fin cfg0.N) (p : Fin 4) (ch : Fin 256) (s : Fin 1024)
    (b : Fin 32) (hb : b.val = 4 * t.val + p.val) :
    (out0_4 (F := Ideal) (iblk m c 0 t) (iblk m c 1 t) (iblk m c 2 t) (iblk m c 3 t) : Vec Ideal S4x256x1024 .f32) (ix3 p ch s)
      = entryOf m c b ch s := by
  unfold out0_4
  rw [View.canon_unit_zero origin3]
  simp only [View.ld_unit_zero (S := S4x256x1024) origin3, View.ld_unit_zero (S := S256x32) origin2,
    View.ld_unit_zero (S := S32x512) origin2]
  rw [weights1_block m c t, weights2_block m c t]
  refine (pay_apply (iblk m c 2 t) (iblk m c 3 t) (V m c main_arg2) (V m c main_arg3) p ch s).trans ?_
  unfold entryOf
  have e0 : (fun ch s => (iblk m c 2 t : Vec Ideal S4x256x1024 .f32) (ix3 p ch s))
      = fun ch s => (V m c main_v0 : Vec Ideal S32x256x1024 .f32) (ix3 b ch s) :=
    funext fun ch => funext fun s => map0_block_apply m c t (ix3 p ch s) (ix3 b ch s) hb rfl rfl
  have e1 : (fun ch s => (iblk m c 3 t : Vec Ideal S4x256x1024 .f32) (ix3 p ch s))
      = fun ch s => (V m c main_v1 : Vec Ideal S32x256x1024 .f32) (ix3 b ch s) :=
    funext fun ch => funext fun s => map1_block_apply m c t (ix3 p ch s) (ix3 b ch s) hb rfl rfl
  rw [e0, e1]

/-- What point t writes back is block t of the result array. -/
private theorem flushed_eq (c : Dev nD) (t : Fin cfg0.N) :
    (dats (F := Ideal) m 0 c).flushed 4 t = ((cfg0.win 4).blk t).view.read (Elt Ideal) (resultArray m c) := by
  obtain ⟨e0, e1, e2⟩ := outIndex t
  have ht : t.val < 8 := Nat.lt_of_lt_of_eq t.isLt N_0
  show (cfg0.win 4).cut (grid0.coords t) ((dats m 0 c).after 4 t) = _
  rw [after0_4]
  refine funext fun (j : S4x256x1024.Idx) => ?_
  obtain ⟨p, ch, s, rfl⟩ : ∃ (p : Fin 4) (ch : Fin 256) (s : Fin 1024), j = ix3 p ch s := ⟨j 0, j 1, j 2, eq_ix3 j⟩
  show (out0_4 (F := Ideal) (iblk m c 0 t) (iblk m c 1 t) (iblk m c 2 t) (iblk m c 3 t) : Vec Ideal S4x256x1024 .f32) (ix3 p ch s)
    = entryOf m c (((cfg0.win 4).blk t).view.emb (ix3 p ch s) 0) (((cfg0.win 4).blk t).view.emb (ix3 p ch s) 1)
        (((cfg0.win 4).blk t).view.emb (ix3 p ch s) 2)
  refine (stored_entry m c t p ch s ⟨4 * t.val + p.val, by omega⟩ rfl).trans ?_
  refine entryOf_congr m c ?_ ?_ ?_
  · show 4 * t.val + p.val = win0_4.index t (0 : Fin 3) * 4 + 1 * p.val; omega
  · show ch.val = win0_4.index t (1 : Fin 3) * 256 + 1 * ch.val; omega
  · show s.val = win0_4.index t (2 : Fin 3) * 1024 + 1 * s.val; omega

/-! ## The blocks cover the array -/

/-- An index of the array is in point t's block iff each coordinate is in the block's range on its axis. -/
private theorem mem_block_iff (t : Fin cfg0.N) (i : S32x256x1024.Idx) :
    i ∈ ((cfg0.win 4).blk t).view.set ↔ ∀ a : Fin 3, win0_4.index t a * S4x256x1024.size a ≤ (i a).val
      ∧ (i a).val < win0_4.index t a * S4x256x1024.size a + S4x256x1024.size a := by
  show i ∈ ((View.whole main_v2).slice (win0_4.rect t)).set ↔ _
  rw [View.set_slice_whole, Rect.mem_set_unit]
  exact Iff.rfl

/-- Batch element b lies in the block of point b / 4, and every point writes its block back. -/
private theorem covered (i : S32x256x1024.Idx) :
    ∃ t : Fin cfg0.N, (cfg0.win 4).flush t = true ∧ i ∈ ((cfg0.win 4).blk t).view.set := by
  have h0 : (i 0).val < 32 := (i 0).isLt
  have h1 : (i 1).val < 256 := (i 1).isLt
  have h2 : (i 2).val < 1024 := (i 2).isLt
  have hN : cfg0.N = 8 := N_0
  obtain ⟨t, ht⟩ : ∃ t : Fin cfg0.N, t.val = (i 0).val / 4 := ⟨⟨(i 0).val / 4, by rw [hN]; omega⟩, rfl⟩
  obtain ⟨e0, e1, e2⟩ := outIndex t
  refine ⟨t, flush0_4 t, ?_⟩
  rw [mem_block_iff]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- So the array after the region is the result array. -/
private theorem result_eq (c : Dev nD) : (dats (F := Ideal) m 0 c).arrAt 4 cfg0.N = resultArray m c :=
  (dats (F := Ideal) m 0 c).arrAt_eq_of_cover 4 (resultArray m c) (fun t _ => flushed_eq m c t) covered

/-- Entry (b, ch, s) of the region's result array. -/
theorem final_apply (c : Dev nD) (b : Fin 32) (ch : Fin 256) (s : Fin 1024) :
    ((dats (F := Ideal) m 0 c).arrAt 4 cfg0.N : Vec Ideal S32x256x1024 .f32) (ix3 b ch s)
      = Skf.rowK Skf.kap (fun ch s => (V m c main_v0 : Vec Ideal S32x256x1024 .f32) (ix3 b ch s))
          (fun ch s => (V m c main_v1 : Vec Ideal S32x256x1024 .f32) (ix3 b ch s))
          (Skf.mat1 (V m c main_arg2)) (Skf.mat2 (V m c main_arg3)) ch s :=
  (congrFun (result_eq m c) (ix3 b ch s)).trans rfl

end Cert.KernelIdeal.Val

end
-- ==== Proof.KernelArray.lean ====
/-
  The fused kernel's result array. The eight grid points write disjoint blocks of four batch elements
  each, block t holding batch elements 4 t .. 4 t + 3, and each block element is the fusion's first
  spelling of its own batch element's rows; the arrays the region reads are the two feature maps with their
  positions flattened (a reshape before the region) and the result is un-flattened after it. So the
  program's result is Skf.resK of the four argument arrays.
-/
import proofs.«113176_g2000706281692390_pallasbulk_37_2_alg».proof.Proof.KernelFinal

noncomputable section

open Idealize.ShloMosaic Idealize.ShloMosaic.TcCoe Idealize.ShloMosaic.ValueIdx Idealize.SL.Sem
open Idealize.ShloMosaic.Pipeline (Dat)
open scoped BigOperators

namespace Cert.KernelIdeal.Val

open Cert.KernelIdeal Cert.KernelIdeal.Gen

variable (m : (ℓ : Loc nD τ sig) → Buf (Elt Ideal) ℓ) (ρ : Dev nD → PrngReg)

/-- Flattening the positions: entry (b, ch, s) of the [32, 256, 1024] cast is entry (b, ch, s / 32, s % 32). -/
private theorem flat_apply (x : Vec Ideal S32x256x32x32 .f32) (b : Fin 32) (ch : Fin 256) (s : Fin 1024) :
    shapeCast S32x256x1024 x shapeCasts_S32x256x32x32_S32x256x1024 (ix3 b ch s)
      = x (ix4 b ch (Skf.ph s) (Skf.pw s)) := by
  refine shapeCast_apply x _ (ix3 b ch s) (ix4 b ch (Skf.ph s) (Skf.pw s)) ?_
  rw [Shape.rowMajor_val_four, Shape.rowMajor_val_three]
  show ((b.val * 256 + ch.val) * 32 + s.val / 32) * 32 + s.val % 32 = (b.val * 256 + ch.val) * 1024 + s.val
  omega

/-- Un-flattening: entry (b, ch, h, w) of the [32, 256, 32, 32] cast is entry (b, ch, 32 h + w). -/
private theorem unflat_apply (x : Vec Ideal S32x256x1024 .f32) (b : Fin 32) (ch : Fin 256) (h w : Fin 32) :
    shapeCast S32x256x32x32 x shapeCasts_S32x256x1024_S32x256x32x32 (ix4 b ch h w)
      = x (ix3 b ch (Skf.sp h w)) := by
  refine shapeCast_apply x _ (ix4 b ch h w) (ix3 b ch (Skf.sp h w)) ?_
  rw [Shape.rowMajor_val_four, Shape.rowMajor_val_three]
  show (b.val * 256 + ch.val) * 1024 + (32 * h.val + w.val) = ((b.val * 256 + ch.val) * 32 + h.val) * 32 + w.val
  omega

/-- The first array the region reads is the first argument with its positions flattened. -/
private theorem V_v0_apply (c : Dev nD) (b : Fin 32) (ch : Fin 256) (s : Fin 1024) :
    (V m c main_v0 : Vec Ideal S32x256x1024 .f32) (ix3 b ch s)
      = Skf.rowOf (m ((c.tc : Thread nD τ).loc main_arg0)) b ch s := by
  have e : (V m c main_v0 : Vec Ideal S32x256x1024 .f32)
      = shapeCast S32x256x1024 (m ((c.tc : Thread nD τ).loc main_arg0) : Vec Ideal S32x256x32x32 .f32)
          shapeCasts_S32x256x32x32_S32x256x1024 := by
    show StableHlo.after hostOps0 (fun b => m (c, b)) (Proc.devRef .tc main_v0) = _
    after_results
    rfl
  rw [e]
  exact flat_apply _ b ch s

/-- The second array the region reads is the second argument with its positions flattened. -/
private theorem V_v1_apply (c : Dev nD) (b : Fin 32) (ch : Fin 256) (s : Fin 1024) :
    (V m c main_v1 : Vec Ideal S32x256x1024 .f32) (ix3 b ch s)
      = Skf.rowOf (m ((c.tc : Thread nD τ).loc main_arg1)) b ch s := by
  have e : (V m c main_v1 : Vec Ideal S32x256x1024 .f32)
      = shapeCast S32x256x1024 (m ((c.tc : Thread nD τ).loc main_arg1) : Vec Ideal S32x256x32x32 .f32)
          shapeCasts_S32x256x32x32_S32x256x1024 := by
    show StableHlo.after hostOps0 (fun b => m (c, b)) (Proc.devRef .tc main_v1) = _
    after_results
    rfl
  rw [e]
  exact flat_apply _ b ch s

/-- The result array is the region's result array with its positions un-flattened. -/
private theorem tail_apply (c : Dev nD) (b : Fin 32) (ch : Fin 256) (h w : Fin 32) :
    (Pipeline.afterTail₀ cfgs (dats (F := Ideal) m) 0 (V0 m) [hostOps1] c main_v3 : Vec Ideal S32x256x32x32 .f32)
        (ix4 b ch h w)
      = ((dats (F := Ideal) m 0 c).arrAt 4 cfg0.N : Vec Ideal S32x256x1024 .f32) (ix3 b ch (Skf.sp h w)) := by
  have e : (Pipeline.afterTail₀ cfgs (dats (F := Ideal) m) 0 (V0 m) [hostOps1] c main_v3 : Vec Ideal S32x256x32x32 .f32)
      = shapeCast S32x256x32x32 ((dats (F := Ideal) m 0 c).arrAt 4 cfg0.N : Vec Ideal S32x256x1024 .f32)
          shapeCasts_S32x256x1024_S32x256x32x32 := by
    unfold Pipeline.afterTail₀
    show StableHlo.after hostOps1 _ (Proc.devRef .tc main_v3) = _
    after_results
    exact congrArg (fun x : Vec Ideal S32x256x1024 .f32 =>
        shapeCast S32x256x32x32 x shapeCasts_S32x256x1024_S32x256x32x32)
      (Pipeline.withArrays_arr spec0 launch0.win.arr_inj c _ _ 4)
  rw [e]
  exact unflat_apply _ b ch h w

/-- Entry (b, ch, h, w) of the result array is the fusion's first spelling at batch element b, channel ch,
    position 32 h + w. -/
private theorem res_apply (c : Dev nD) (b : Fin 32) (ch : Fin 256) (h w : Fin 32) :
    (Pipeline.afterTail₀ cfgs (dats (F := Ideal) m) 0 (V0 m) [hostOps1] c main_v3 : Vec Ideal S32x256x32x32 .f32)
        (ix4 b ch h w)
      = Skf.resK Skf.kap (m ((c.tc : Thread nD τ).loc main_arg0)) (m ((c.tc : Thread nD τ).loc main_arg1))
          (m ((c.tc : Thread nD τ).loc main_arg2)) (m ((c.tc : Thread nD τ).loc main_arg3)) (ix4 b ch h w) := by
  have e0 : (fun ch s => (V m c main_v0 : Vec Ideal S32x256x1024 .f32) (ix3 b ch s))
      = Skf.rowOf (m ((c.tc : Thread nD τ).loc main_arg0)) b :=
    funext fun ch => funext fun s => V_v0_apply m c b ch s
  have e1 : (fun ch s => (V m c main_v1 : Vec Ideal S32x256x1024 .f32) (ix3 b ch s))
      = Skf.rowOf (m ((c.tc : Thread nD τ).loc main_arg1)) b :=
    funext fun ch => funext fun s => V_v1_apply m c b ch s
  refine (tail_apply m c b ch h w).trans ((final_apply m c b ch (Skf.sp h w)).trans ?_)
  rw [e0, e1, V_main_arg2, V_main_arg3]
  rfl

/-- Every weakly fair execution ends with the result array at the fusion's first spelling of the
    arguments, and the arguments unchanged. -/
theorem run : θ_run defs (onTc (τ := τ) (main (F := Ideal))) ⟨m, fun _ => 0, ρ⟩ (fun r => ∀ c : Dev nD,
      r.2.mem ((c.tc : Thread nD τ).loc main_v3)
        = Skf.resK Skf.kap (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun r h c =>
    ⟨((h c).2 main_v3 (Pipeline.mem_restRefs_of main_v3 (by decide) (by decide))).trans (by
        funext i
        obtain ⟨b, ch, p, q, rfl⟩ : ∃ b ch p q, i = ix4 b ch p q := ⟨_, _, _, _, eq_ix4 i⟩
        exact res_apply m c b ch p q),
      ((h c).2 main_arg0 (Pipeline.mem_restRefs_of main_arg0 (by decide) (by decide))).trans
        (W_main_arg0 m (dats m) c),
      ((h c).2 main_arg1 (Pipeline.mem_restRefs_of main_arg1 (by decide) (by decide))).trans
        (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Val

end
-- ==== Proof.RefArrays.lean ====
/-
  What the buffers hold at each boundary of the two-pass program. Before the first pass the two feature
  maps are reshaped [32, 256, 32, 32] to [8192, 1024]: row 256 b + ch, position 32 h + w. Nothing writes
  those two arrays or the weights afterwards, so the second pass finds them as the first did. The first
  pass's result array holds what its write-backs leave; the gate array the second pass reads is what the
  host operations between the passes compute from the first pass's exit contents; and the program's
  result is the second pass's result array reshaped [8192, 1024] to [32, 256, 32, 32].
-/
import proofs.«113176_g2000706281692390_pallasbulk_37_2_alg».proof.Proof.Gen.ReferenceIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

variable (m : (ℓ : Loc nD τ sig) → Buf (Elt Ideal) ℓ) (ρ : Dev nD → PrngReg)

/-- The [8192, 1024] reshape of a [32, 256, 32, 32] array at row 256 b + ch, position s, is the array at
    (b, ch, s / 32, s % 32): both sit at the same row-major position. -/
private theorem toRows_apply {α : Type} (x : S32x256x32x32.Idx → α) (h : S32x256x32x32.ShapeCasts S8192x1024)
    (b : Fin 32) (ch : Fin 256) (s : Fin 1024) :
    shapeCast S8192x1024 x h (ix2 (Skf.rc b ch) s) = x (ix4 b ch (Skf.ph s) (Skf.pw s)) := by
  refine shapeCast_apply x h _ _ ?_
  rw [Shape.rowMajor_val_four, Shape.rowMajor_val_two]
  have hb := b.isLt; have hc := ch.isLt; have hs := s.isLt
  show ((b.val * 256 + ch.val) * 32 + s.val / 32) * 32 + s.val % 32 = (256 * b.val + ch.val) * 1024 + s.val
  omega

/-- The [32, 256, 32, 32] reshape of an [8192, 1024] array at (b, ch, h, w) is the array at row 256 b + ch,
    position 32 h + w. -/
private theorem ofRows_apply {α : Type} (x : S8192x1024.Idx → α) (hc : S8192x1024.ShapeCasts S32x256x32x32)
    (b : Fin 32) (ch : Fin 256) (h w : Fin 32) :
    shapeCast S32x256x32x32 x hc (ix4 b ch h w) = x (ix2 (Skf.rc b ch) (Skf.sp h w)) := by
  refine shapeCast_apply x hc _ _ ?_
  rw [Shape.rowMajor_val_four, Shape.rowMajor_val_two]
  have hb := b.isLt; have hch := ch.isLt; have hh := h.isLt; have hw := w.isLt
  show (256 * b.val + ch.val) * 1024 + (32 * h.val + w.val) = ((b.val * 256 + ch.val) * 32 + h.val) * 32 + w.val
  omega

/-- The first map as the first pass finds it: row 256 b + ch at position s is entry (b, ch, s / 32, s % 32). -/
theorem V1_v0_apply (c : Dev nD) (b : Fin 32) (ch : Fin 256) (s : Fin 1024) :
    (V1 m ρ c main_v0 : Vec Ideal S8192x1024 .f32) (ix2 (Skf.rc b ch) s)
      = Skf.rowOf (m ((c.tc : Thread nD τ).loc main_arg0)) b ch s := by
  have e : (V1 m ρ c main_v0 : Vec Ideal S8192x1024 .f32)
      = shapeCast S8192x1024 (m ((c.tc : Thread nD τ).loc main_arg0) : Vec Ideal S32x256x32x32 .f32) shapeCasts_S32x256x32x32_S8192x1024 := by
    show StableHlo.after (hostOps0 (F := Ideal)) (W0 m ρ c) (Proc.devRef .tc main_v0) = _
    dsimp only [hostOps0]
    after_results
    rfl
  rw [e]
  exact toRows_apply _ _ b ch s

/-- The second map likewise. -/
theorem V1_v1_apply (c : Dev nD) (b : Fin 32) (ch : Fin 256) (s : Fin 1024) :
    (V1 m ρ c main_v1 : Vec Ideal S8192x1024 .f32) (ix2 (Skf.rc b ch) s)
      = Skf.rowOf (m ((c.tc : Thread nD τ).loc main_arg1)) b ch s := by
  have e : (V1 m ρ c main_v1 : Vec Ideal S8192x1024 .f32)
      = shapeCast S8192x1024 (m ((c.tc : Thread nD τ).loc main_arg1) : Vec Ideal S32x256x32x32 .f32) shapeCasts_S32x256x32x32_S8192x1024 := by
    show StableHlo.after (hostOps0 (F := Ideal)) (W0 m ρ c) (Proc.devRef .tc main_v1) = _
    dsimp only [hostOps0]
    after_results
    rfl
  rw [e]
  exact toRows_apply _ _ b ch s

/-- The second pass finds the two maps as the first did. -/
theorem V3_v0 (c : Dev nD) : V3 m ρ c main_v0 = V1 m ρ c main_v0 := by
  calc V3 m ρ c main_v0
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 0 cfg0.N := W2_arr m ρ c 0
    _ = (dat0 (V1 m ρ) c).A 0 := Pipeline.Dat.arrAt_in _ 0 rfl _
    _ = V1 m ρ c main_v0 := A_eq0 (V1 m ρ) c 0
theorem V3_v1 (c : Dev nD) : V3 m ρ c main_v1 = V1 m ρ c main_v1 := by
  calc V3 m ρ c main_v1
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 1 cfg0.N := W2_arr m ρ c 1
    _ = (dat0 (V1 m ρ) c).A 1 := Pipeline.Dat.arrAt_in _ 1 rfl _
    _ = V1 m ρ c main_v1 := A_eq0 (V1 m ρ) c 1

/-- At the first pass's exit its result array holds what the write-backs leave; the weights are as launched. -/
theorem W2_v2 (c : Dev nD) : W2 m ρ c (Proc.devRef .tc main_v2) = (dat0 (V1 m ρ) c).arrAt 2 cfg0.N := by
  exact W2_arr m ρ c 2
theorem W2_arg2 (c : Dev nD) : W2 m ρ c (Proc.devRef .tc main_arg2) = m ((c.tc : Thread nD τ).loc main_arg2) := by
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl
theorem W2_arg3 (c : Dev nD) : W2 m ρ c (Proc.devRef .tc main_arg3) = m ((c.tc : Thread nD τ).loc main_arg3) := by
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

/-- The gate array the second pass finds is the host operations' result from the first pass's exit contents. -/
theorem V3_v24 (c : Dev nD) :
    V3 m ρ c main_v24 = StableHlo.after (hostOps1 (F := Ideal)) (W2 m ρ c) (Proc.devRef .tc main_v24) := by
  rfl

/-- The program's result at (b, ch, h, w) is the second pass's result array at row 256 b + ch, position 32 h + w. -/
theorem W5_v26_apply (c : Dev nD) (b : Fin 32) (ch : Fin 256) (h w : Fin 32) :
    (W5 m ρ c (Proc.devRef .tc main_v26) : Vec Ideal S32x256x32x32 .f32) (ix4 b ch h w)
      = ((dat1 (V3 m ρ) c).arrAt 3 cfg1.N : Vec Ideal S8192x1024 .f32) (ix2 (Skf.rc b ch) (Skf.sp h w)) := by
  have e : (W5 m ρ c (Proc.devRef .tc main_v26) : Vec Ideal S32x256x32x32 .f32)
      = shapeCast S32x256x32x32 ((dat1 (V3 m ρ) c).arrAt 3 cfg1.N : Vec Ideal S8192x1024 .f32) shapeCasts_S8192x1024_S32x256x32x32 := by
    show StableHlo.after (hostOps2 (F := Ideal)) (W4 m ρ c) (Proc.devRef .tc main_v26) = _
    dsimp only [hostOps2]
    after_results
    rw [show W4 m ρ c (Proc.devRef .tc main_v25) = (dat1 (V3 m ρ) c).arrAt 3 cfg1.N from W4_arr m ρ c 3]
    rfl
  rw [e]
  exact ofRows_apply _ _ b ch h w

end Cert.ReferenceIdeal.Val

end
-- ==== Proof.RefPool.lean ====
/-
  The pooling pass. Its grid is 2 halves by 4 tiles; point (c, i) reads the [8192, 128] tile 4 c + i of
  the two [8192, 1024] feature arrays and keeps a [1, 8192, 1] running sum per half: the first tile of a
  half stores zero, reads it back and adds its row sums, the later tiles add theirs to what the tile
  before left. The block of half c is written back once, after its fourth tile. So entry (c, r, 0) of
  the [2, 8192, 1] result is the half's partial sum Skf.part of row r of the two arrays.
-/
import proofs.«113176_g2000706281692390_pallasbulk_37_2_alg».proof.Proof.Gen.ReferenceIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

variable (V : (c : Dev nD) → (b : Ref sig .tc) → Buf (Elt Ideal) ((c : Thread nD τ).loc b))

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- A later tile of a half (the reset not taken): over a running block xo the body leaves the update of xo by
    the two input tiles, its one covering store's payload, whose three loads read whole buffers. -/
private theorem out_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8192x1 .f32) (h4 : a4.IsWhole)
    (hc : ¬cond0_0 i) (x0 x1 : Vec F S8192x128 .f32) (xo : Vec F S1x8192x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero (S := S1x8192x1) hz3]
  simp only [View.readAt_eq_ld, h2.read_unread, h3.read_unread, h4.read_unread, View.ld_unit_zero (S := S8192x128) hz2,
    View.ld_unit_zero (S := S1x8192x1) hz3]

/-- The first tile of a half (the reset taken): the body stores the zero block, reads it back, and leaves the
    update of the zero block by the two input tiles. -/
private theorem out_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8192x1 .f32) (h4 : a4.IsWhole)
    (hc : cond0_0 i) (x0 x1 : Vec F S8192x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8192x1) hz3, View.readCov_unit_zero (S := S1x8192x1) _ hz3]
  simp only [View.readAt_eq_ld, h2.read_unread, h3.read_unread, View.ld_unit_zero (S := S8192x128) hz2]

end Pieces

/-! ## The two payloads at an entry, over the extended reals -/

/-- An [a] array cast to [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero block is zero at every entry. -/
private theorem pay1_apply (j : S1x8192x1.Idx) : (k0_pay1 (F := Ideal)) j = (0 : EReal) := by
  unfold k0_pay1
  exact Ideal.ofBits_zero_f32

/-- The lane sum of a [8192, 128] block at row r is the sum of the row's 128 entries. -/
private theorem laneSum_apply (v : FVec Ideal S8192x128 .f32) (h : S8192x128.Reduces [1] S8192) (hφ : FKind.Formats .f32)
    (hacc : (0x00000000#32 : BitVec 32) = 0x00000000#32) (r : Fin 8192) :
    multiReduction .add [1] S8192 v 0x00000000#32 h hφ hacc (ix1 r) = ∑ l : Fin 128, v (ix2 r l) := by
  refine (Ideal.multiReduction_add_single v 0x00000000#32 h hφ hacc (ix1 r)).trans ?_
  refine Finset.sum_congr rfl fun l _ => congrArg v ?_
  funext a
  match a with
  | ⟨0, _⟩ => rfl
  | ⟨1, _⟩ => rfl

/-- The update at entry (0, r, 0): the running entry plus the sum over the 128 lanes of the two tiles' entries. -/
private theorem pay2_apply (x0 x1 : Vec Ideal S8192x128 .f32) (xo : Vec Ideal S1x8192x1 .f32) (r : Fin 8192) :
    k0_pay2 (F := Ideal) x0 x1 xo (ix3 (0 : Fin 1) r (0 : Fin 1))
      = (xo (ix3 (0 : Fin 1) r (0 : Fin 1)) : EReal) + ∑ l : Fin 128, ((x0 (ix2 r l) : EReal) + x1 (ix2 r l)) := by
  unfold k0_pay2
  refine (shapeCast_ab_1ab_apply _ _ (0 : Fin 1) r (0 : Fin 1)).trans ?_
  refine (addf_apply _ _ _).trans ?_
  refine congrArg₂ (· + ·) ?_ ?_
  · exact shapeCast_1ab_ab_apply xo _ r (0 : Fin 1)
  · refine (shapeCast_a_a1_apply _ _ r (0 : Fin 1)).trans ?_
    refine (laneSum_apply _ _ _ _ r).trans ?_
    refine Finset.sum_congr rfl fun l _ => ?_
    rw [shapeCast_self, shapeCast_self]
    rfl

/-! ## The input tiles and the rows they are cut from -/

/-- The tile of the first feature array that point t reads. -/
private abbrev xblk0 (c : Dev nD) (t : Fin cfg0.N) : Vec Ideal S8192x128 .f32 := iblk0 V c 0 t
/-- The tile of the second feature array that point t reads. -/
private abbrev xblk1 (c : Dev nD) (t : Fin cfg0.N) : Vec Ideal S8192x128 .f32 := iblk0 V c 1 t
/-- Row r of the first feature array. -/
private abbrev row0 (c : Dev nD) (r : Fin 8192) : Fin 1024 → EReal := fun s => (V c main_v0 : Vec Ideal S8192x1024 .f32) (ix2 r s)
/-- Row r of the second feature array. -/
private abbrev row1 (c : Dev nD) (r : Fin 8192) : Fin 1024 → EReal := fun s => (V c main_v1 : Vec Ideal S8192x1024 .f32) (ix2 r s)

/-- Point t reads, of either feature array, all rows and the column tile t. -/
private theorem hidx0 : ∀ t : Fin cfg0.N, win0_0.index t 0 = 0 ∧ win0_0.index t 1 = t.val :=
  (by decide +kernel : ∀ t : Fin grid0.N, win0_0.index t 0 = 0 ∧ win0_0.index t 1 = t.val)
private theorem hidx1 : ∀ t : Fin cfg0.N, win0_1.index t 0 = 0 ∧ win0_1.index t 1 = t.val :=
  (by decide +kernel : ∀ t : Fin grid0.N, win0_1.index t 0 = 0 ∧ win0_1.index t 1 = t.val)

/-- Entry (r, l) of the tile point t reads of the first array is the array's entry (r, 128 t + l). -/
private theorem xblk0_apply (c : Dev nD) (t : Fin cfg0.N) (r : Fin 8192) (l : Fin 128) (s : Fin 1024)
    (hs : s.val = t.val * 128 + l.val) : xblk0 V c t (ix2 r l) = row0 V c r s := by
  unfold xblk0 iblk0
  rw [View.read_apply]
  show V c main_v0 _ = V c main_v0 _
  congr 1
  funext a
  apply Fin.ext
  match a with
  | ⟨0, _⟩ => show win0_0.index t 0 * 8192 + 1 * r.val = r.val; rw [(hidx0 t).1]; omega
  | ⟨1, _⟩ => show win0_0.index t 1 * 128 + 1 * l.val = s.val; rw [(hidx0 t).2, hs]; omega

/-- The same of the second array. -/
private theorem xblk1_apply (c : Dev nD) (t : Fin cfg0.N) (r : Fin 8192) (l : Fin 128) (s : Fin 1024)
    (hs : s.val = t.val * 128 + l.val) : xblk1 V c t (ix2 r l) = row1 V c r s := by
  unfold xblk1 iblk0
  rw [View.read_apply]
  show V c main_v1 _ = V c main_v1 _
  congr 1
  funext a
  apply Fin.ext
  match a with
  | ⟨0, _⟩ => show win0_1.index t 0 * 8192 + 1 * r.val = r.val; rw [(hidx1 t).1]; omega
  | ⟨1, _⟩ => show win0_1.index t 1 * 128 + 1 * l.val = s.val; rw [(hidx1 t).2, hs]; omega

/-- Row r's sum over the 128 lanes of the two tiles point t reads. -/
private def bsum (c : Dev nD) (t : Fin cfg0.N) (r : Fin 8192) : EReal :=
  ∑ l : Fin 128, (xblk0 V c t (ix2 r l) + xblk1 V c t (ix2 r l))

/-- At point 4 cc + i it is tile i of half cc of the two rows. -/
private theorem bsum_eq_tile (c : Dev nD) (t : Fin cfg0.N) (r : Fin 8192) (cc : Fin 2) (i : Fin 4) (ht : t.val = 4 * cc.val + i.val) :
    bsum V c t r = Skf.tile (row0 V c r) (row1 V c r) cc i := by
  unfold bsum Skf.tile
  refine Finset.sum_congr rfl fun l _ => ?_
  have hs : (Skf.pos cc i l).val = t.val * 128 + l.val := by rw [ht]; rfl
  rw [xblk0_apply V c t r l _ hs, xblk1_apply V c t r l _ hs]

/-! ## What the running block holds after each point -/

/-- Row r's running sum after point n: a half's first tile starts from zero, the later ones add to what the
    point before left. -/
private def chain (c : Dev nD) (r : Fin 8192) : (n : ℕ) → n < cfg0.N → EReal
  | 0, h => 0 + bsum V c ⟨0, h⟩ r
  | n + 1, h => if (n + 1) % 4 = 0 then 0 + bsum V c ⟨n + 1, h⟩ r
      else chain c r n (Nat.lt_of_succ_lt h) + bsum V c ⟨n + 1, h⟩ r

/-- Entry (0, r, 0) of the running block after point n is that running sum: by induction on the point. -/
private theorem outsAt_eq (c : Dev nD) (r : Fin 8192) : ∀ (n : ℕ) (h : n < cfg0.N),
    (outsAt0 V c n h : Vec Ideal S1x8192x1 .f32) (ix3 (0 : Fin 1) r (0 : Fin 1)) = chain V c r n h
  | 0, h => by
    refine (congrFun ((outsAt0_A V c ⟨0, h⟩ rfl).trans (out_A (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) ((hcond0_0 ⟨0, h⟩).mpr rfl) (xblk0 V c ⟨0, h⟩) (xblk1 V c ⟨0, h⟩)))
      (ix3 (0 : Fin 1) r (0 : Fin 1))).trans ?_
    refine (pay2_apply (xblk0 V c ⟨0, h⟩) (xblk1 V c ⟨0, h⟩) (k0_pay1 (F := Ideal)) r).trans ?_
    rw [pay1_apply]
    rfl
  | n + 1, h => by
    by_cases h0 : (n + 1) % 4 = 0
    · refine (congrFun ((outsAt0_A V c ⟨n + 1, h⟩ h0).trans (out_A (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) ((hcond0_0 ⟨n + 1, h⟩).mpr h0) (xblk0 V c ⟨n + 1, h⟩) (xblk1 V c ⟨n + 1, h⟩)))
        (ix3 (0 : Fin 1) r (0 : Fin 1))).trans ?_
      refine (pay2_apply (xblk0 V c ⟨n + 1, h⟩) (xblk1 V c ⟨n + 1, h⟩) (k0_pay1 (F := Ideal)) r).trans ?_
      rw [pay1_apply]
      exact (if_pos h0).symm
    · refine (congrFun ((outsAt0_B V c ⟨n + 1, h⟩ h0).trans (out_B (F := Ideal) c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (fun hh => h0 ((hcond0_0 ⟨n + 1, h⟩).mp hh)) (xblk0 V c ⟨n + 1, h⟩) (xblk1 V c ⟨n + 1, h⟩)
        (outsAt0 V c n (Nat.lt_of_succ_lt h))))
        (ix3 (0 : Fin 1) r (0 : Fin 1))).trans ?_
      refine (pay2_apply (xblk0 V c ⟨n + 1, h⟩) (xblk1 V c ⟨n + 1, h⟩) (outsAt0 V c n (Nat.lt_of_succ_lt h)) r).trans ?_
      rw [outsAt_eq c r n (Nat.lt_of_succ_lt h)]
      exact (if_neg h0).symm

/-! ## The two write-backs and the result array -/

/-- After a half's fourth tile the running sum is the half's four tiles accumulated in order from zero. -/
private theorem chain_three (c : Dev nD) (r : Fin 8192) (h : 3 < cfg0.N) :
    chain V c r 3 h = (((0 + bsum V c ⟨0, by omega⟩ r) + bsum V c ⟨1, by omega⟩ r) + bsum V c ⟨2, by omega⟩ r)
      + bsum V c ⟨3, h⟩ r := rfl
private theorem chain_seven (c : Dev nD) (r : Fin 8192) (h : 7 < cfg0.N) :
    chain V c r 7 h = (((0 + bsum V c ⟨4, by omega⟩ r) + bsum V c ⟨5, by omega⟩ r) + bsum V c ⟨6, by omega⟩ r)
      + bsum V c ⟨7, h⟩ r := rfl

/-- So at the flushing point 4 cc + 3 it is half cc's partial sum of row r. -/
private theorem chain_flush (c : Dev nD) (r : Fin 8192) (t : Fin cfg0.N) (cc : Fin 2) (ht : t.val = 4 * cc.val + 3) :
    chain V c r t.val t.isLt = Skf.part (row0 V c r) (row1 V c r) cc := by
  obtain ⟨n, hn⟩ := t
  obtain ⟨k, hk⟩ := cc
  dsimp only at ht ⊢
  have hk' : k = 0 ∨ k = 1 := by omega
  unfold Skf.part
  rcases hk' with rfl | rfl
  · obtain rfl : n = 3 := by omega
    rw [chain_three V c r hn, bsum_eq_tile V c ⟨0, _⟩ r ⟨0, hk⟩ 0 rfl, bsum_eq_tile V c ⟨1, _⟩ r ⟨0, hk⟩ 1 rfl,
      bsum_eq_tile V c ⟨2, _⟩ r ⟨0, hk⟩ 2 rfl, bsum_eq_tile V c ⟨3, _⟩ r ⟨0, hk⟩ 3 rfl]
  · obtain rfl : n = 7 := by omega
    rw [chain_seven V c r hn, bsum_eq_tile V c ⟨4, _⟩ r ⟨1, hk⟩ 0 rfl, bsum_eq_tile V c ⟨5, _⟩ r ⟨1, hk⟩ 1 rfl,
      bsum_eq_tile V c ⟨6, _⟩ r ⟨1, hk⟩ 2 rfl, bsum_eq_tile V c ⟨7, _⟩ r ⟨1, hk⟩ 3 rfl]

/-- The result array: entry (cc, r, 0) is half cc's partial sum of row r. -/
private abbrev pooled (c : Dev nD) : Vec Ideal S2x8192x1 .f32 :=
  fun j => Skf.part (row0 V c (j 1)) (row1 V c (j 1)) (j 0)

/-- The result's block at point t is block (t / 4, 0, 0). -/
private theorem hidx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- What a flushing point writes back is its block of the result array. -/
private theorem flushed_eq (c : Dev nD) (t : Fin cfg0.N) (hf : (cfg0.win 2).flush t = true) :
    (dat0 (F := Ideal) V c).flushed 2 t = ((cfg0.win 2).blk t).view.read (Elt Ideal) (pooled V c) := by
  have hN : cfg0.N = 8 := N_0
  have h3 : t.val % 4 = 3 := (flush0_2 t).mp hf
  have hlt : t.val < 8 := lt_of_lt_of_eq t.isLt hN
  have hcc : t.val / 4 < 2 := by omega
  refine funext fun (y : S1x8192x1.Idx) => ?_
  obtain ⟨u, r, v, rfl⟩ : ∃ (u : Fin 1) (r : Fin 8192) (v : Fin 1), y = ix3 u r v := ⟨y 0, y 1, y 2, eq_ix3 y⟩
  obtain rfl : u = 0 := Subsingleton.elim _ _
  obtain rfl : v = 0 := Subsingleton.elim _ _
  have he : ((cfg0.win 2).blk t).view.emb (ix3 (0 : Fin 1) r (0 : Fin 1))
      = (ix3 (⟨t.val / 4, hcc⟩ : Fin 2) r (0 : Fin 1) : S2x8192x1.Idx) := by
    funext a
    apply Fin.ext
    match a with
    | ⟨0, _⟩ => show win0_2.index t 0 * 1 + 1 * 0 = t.val / 4; rw [(hidx2 t).1]; omega
    | ⟨1, _⟩ => show win0_2.index t 1 * 8192 + 1 * r.val = r.val; rw [(hidx2 t).2.1]; omega
    | ⟨2, _⟩ => show win0_2.index t 2 * 1 + 1 * 0 = 0; rw [(hidx2 t).2.2]
  rw [View.read_apply]
  show (outsAt0 V c t.val t.isLt : Vec Ideal S1x8192x1 .f32) (ix3 (0 : Fin 1) r (0 : Fin 1))
    = pooled V c (((cfg0.win 2).blk t).view.emb (ix3 (0 : Fin 1) r (0 : Fin 1)))
  rw [he, outsAt_eq V c r t.val t.isLt, chain_flush V c r t ⟨t.val / 4, hcc⟩ (by show t.val = 4 * (t.val / 4) + 3; omega)]

/-- Every entry of the result array is in the block of one of the two flushing points. -/
private theorem covered (i : S2x8192x1.Idx) :
    ∃ t : Fin cfg0.N, (cfg0.win 2).flush t = true ∧ i ∈ ((cfg0.win 2).blk t).view.set := by
  have hN : cfg0.N = 8 := N_0
  have h0 : (i 0 : Nat) < 2 := (i 0).isLt
  have h1 : (i 1 : Nat) < 8192 := (i 1).isLt
  have h2 : (i 2 : Nat) < 1 := (i 2).isLt
  have ht : 4 * (i 0 : Nat) + 3 < cfg0.N := by omega
  refine ⟨⟨4 * (i 0 : Nat) + 3, ht⟩, (flush0_2 _).mpr (by show (4 * (i 0 : Nat) + 3) % 4 = 3; omega), ?_⟩
  show i ∈ ((View.whole main_v2).slice (win0_2.rect ⟨4 * (i 0 : Nat) + 3, ht⟩)).set
  rw [View.set_slice_whole, Rect.mem_set_unit]
  intro a
  have hx := hidx2 ⟨4 * (i 0 : Nat) + 3, ht⟩
  match a with
  | ⟨0, _⟩ =>
    show win0_2.index ⟨4 * (i 0 : Nat) + 3, ht⟩ 0 * 1 ≤ (i 0 : Nat) ∧ (i 0 : Nat) < win0_2.index ⟨4 * (i 0 : Nat) + 3, ht⟩ 0 * 1 + 1
    rw [hx.1]; dsimp only; omega
  | ⟨1, _⟩ =>
    show win0_2.index ⟨4 * (i 0 : Nat) + 3, ht⟩ 1 * 8192 ≤ (i 1 : Nat) ∧ (i 1 : Nat) < win0_2.index ⟨4 * (i 0 : Nat) + 3, ht⟩ 1 * 8192 + 8192
    rw [hx.2.1]; omega
  | ⟨2, _⟩ =>
    show win0_2.index ⟨4 * (i 0 : Nat) + 3, ht⟩ 2 * 1 ≤ (i 2 : Nat) ∧ (i 2 : Nat) < win0_2.index ⟨4 * (i 0 : Nat) + 3, ht⟩ 2 * 1 + 1
    rw [hx.2.2]; omega

/-- After the pooling pass, entry (cc, r, 0) of its result array is half cc's partial sum of row r. -/
theorem pool_final (c : Dev nD) (cc : Fin 2) (r : Fin 8192) :
    ((dat0 (F := Ideal) V c).arrAt 2 cfg0.N : Vec Ideal S2x8192x1 .f32) (ix3 cc r (0 : Fin 1))
      = Skf.part (fun s => (V c main_v0 : Vec Ideal S8192x1024 .f32) (ix2 r s))
          (fun s => (V c main_v1 : Vec Ideal S8192x1024 .f32) (ix2 r s)) cc := by
  have e : (dat0 (F := Ideal) V c).arrAt 2 cfg0.N = pooled V c :=
    (dat0 (F := Ideal) V c).arrAt_eq_of_cover 2 (pooled V c) (flushed_eq V c) covered
  exact congrFun e (ix3 cc r (0 : Fin 1))

end Cert.ReferenceIdeal.Val

end
-- ==== Proof.RefHostLogits.lean ====
/-
  The first half of the host operations between the two passes, read at an element: from the [2, 8192, 1]
  partial sums the two halves are added from zero, laid out [32, 256] (row 256 b + ch is batch b, channel
  ch), scaled by 1/1024 and sent through the two-layer map — a dot_general with w1, a clamp at zero, a
  dot_general with w2. Entry (b, n) of the [32, 512] logits is Skf.logit of batch b's pooled vector.
-/
import proofs.«113176_g2000706281692390_pallasbulk_37_2_alg».proof.Proof.Gen.ReferenceIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

/-- The first product's dimension record is the plain [32, 256] by [256, 32] one. -/
private theorem dot1_eq : dot_S32x256_S256x32_S32x32_1_0_0_1_n_n = DotDims.plain 32 256 32 := rfl
/-- The second product's dimension record is the plain [32, 32] by [32, 512] one. -/
private theorem dot2_eq : dot_S32x32_S32x512_S32x512_1_0_0_1_n_n = DotDims.plain 32 32 512 := rfl

/-- The two halves added from zero, at row r. -/
private theorem halves_apply (x : FVec Ideal S2x8192x1 .f32) (r : Fin 8192) :
    (Host.reduceAdd (F := Ideal) x (constant (F := Ideal) S_ .f32 0x00000000#32) reducesTo_S2x8192x1_S8192x1_d0 h_S_
        : FVec Ideal S8192x1 .f32) (ix2 r (0 : Fin 1))
      = 0 + ∑ c : Fin 2, x (ix3 c r (0 : Fin 1)) := by
  have h : S2x8192x1.Reduces [0] S8192x1 := by decide
  show Ideal.hostReduceAdd reducesTo_S2x8192x1_S8192x1_d0 x (Ideal.ofBits .f32 0x00000000#32) (ix2 r 0) = _
  rw [Ideal.hostReduceAdd_single _ h, Ideal.ofBits_zero_f32]
  refine congrArg (0 + ·) (Finset.sum_congr rfl fun c _ => congrArg x ?_)
  funext a; apply Fin.ext
  match a with
  | ⟨0, _⟩ => rfl
  | ⟨1, _⟩ => rfl
  | ⟨2, _⟩ => rfl

/-- The pooled [32, 256] array: entry (b, ch) is row 256 b + ch of the added halves, times the constant. -/
private theorem pooled_apply (x : FVec Ideal S2x8192x1 .f32) (b : Fin 32) (ch : Fin 256) :
    (mulf (shapeCast S32x256
            (Host.reduceAdd (F := Ideal) x (constant (F := Ideal) S_ .f32 0x00000000#32) reducesTo_S2x8192x1_S8192x1_d0 h_S_
              : FVec Ideal S8192x1 .f32) shapeCasts_S8192x1_S32x256)
          (broadcastInDim S32x256 ![] bcast_S_S32x256 (constant (F := Ideal) S_ .f32 0x3A800000#32))
        : FVec Ideal S32x256 .f32) (ix2 b ch)
      = Skf.poolOfParts Skf.kap (fun c ch' => x (ix3 c (Skf.rc b ch') (0 : Fin 1))) ch := by
  rw [mulf_apply]
  rw [shapeCast_apply _ shapeCasts_S8192x1_S32x256 (ix2 b ch) (ix2 (Skf.rc b ch) (0 : Fin 1))
    (by rw [Shape.rowMajor_val_two, Shape.rowMajor_val_two]
        show (256 * b.val + ch.val) * 1 + 0 = b.val * 256 + ch.val
        omega)]
  rw [halves_apply]
  rfl

/-- The hidden layer: the first product clamped below at zero, at (b, j). -/
private theorem hidden_apply (P : FVec Ideal S32x256 .f32) (W1 : FVec Ideal S256x32 .f32) (b : Fin 32) (j : Fin 32) :
    (maximumf (Host.dotGeneral (F := Ideal) dot_S32x256_S256x32_S32x32_1_0_0_1_n_n none P W1)
        (broadcastInDim S32x32 ![] bcast_S_S32x32 (constant (F := Ideal) S_ .f32 0x00000000#32))
        : FVec Ideal S32x32 .f32) (ix2 b j)
      = max (∑ ch : Fin 256, P (ix2 b ch) * W1 (ix2 ch j)) 0 := by
  rw [maximumf_apply, dot1_eq, StackMember.dotGeneral_plain_apply]
  show max _ (Ideal.ofBits .f32 0x00000000#32) = _
  rw [Ideal.ofBits_zero_f32]

/-- The host operations from the partial sums to the logits, as one term. -/
private def logitsOf (x : FVec Ideal S2x8192x1 .f32) (W1 : FVec Ideal S256x32 .f32) (W2 : FVec Ideal S32x512 .f32) :
    FVec Ideal S32x512 .f32 :=
  Host.dotGeneral (F := Ideal) dot_S32x32_S32x512_S32x512_1_0_0_1_n_n none
    (maximumf
      (Host.dotGeneral (F := Ideal) dot_S32x256_S256x32_S32x32_1_0_0_1_n_n none
        (mulf (shapeCast S32x256
            (Host.reduceAdd (F := Ideal) x (constant (F := Ideal) S_ .f32 0x00000000#32) reducesTo_S2x8192x1_S8192x1_d0 h_S_
              : FVec Ideal S8192x1 .f32) shapeCasts_S8192x1_S32x256)
          (broadcastInDim S32x256 ![] bcast_S_S32x256 (constant (F := Ideal) S_ .f32 0x3A800000#32)))
        W1)
      (broadcastInDim S32x32 ![] bcast_S_S32x32 (constant (F := Ideal) S_ .f32 0x00000000#32)))
    W2

/-- That term at (b, n) is the two-layer map of batch b's pooled vector. -/
private theorem logitsOf_apply (x : FVec Ideal S2x8192x1 .f32) (W1 : FVec Ideal S256x32 .f32) (W2 : FVec Ideal S32x512 .f32)
    (b : Fin 32) (n : Fin 512) :
    logitsOf x W1 W2 (ix2 b n)
      = Skf.logit (Skf.poolOfParts Skf.kap fun c ch' => x (ix3 c (Skf.rc b ch') (0 : Fin 1))) (Skf.mat1 W1) (Skf.mat2 W2) n := by
  unfold logitsOf
  rw [dot2_eq, StackMember.dotGeneral_plain_apply]
  unfold Skf.logit Skf.hid
  refine Finset.sum_congr rfl fun j _ => ?_
  rw [hidden_apply]
  refine congrArg (fun t => max t 0 * W2 (ix2 j n)) (Finset.sum_congr rfl fun ch _ => ?_)
  rw [pooled_apply]
  rfl

/-- The logits buffer after the host operations between the passes, at entry (b, n). -/
theorem logit_read (Wv : Valuation τ sig (Elt Ideal)) (b : Fin 32) (n : Fin 512) :
    (StableHlo.after (hostOps1 (F := Ideal)) Wv (Proc.devRef .tc main_v10) : Vec Ideal S32x512 .f32) (ix2 b n)
      = Skf.logit
          (Skf.poolOfParts Skf.kap fun c ch' => (Wv (Proc.devRef .tc main_v2) : Vec Ideal S2x8192x1 .f32) (ix3 c (Skf.rc b ch') (0 : Fin 1)))
          (Skf.mat1 (Wv (Proc.devRef .tc main_arg2))) (Skf.mat2 (Wv (Proc.devRef .tc main_arg3))) n := by
  have e : (StableHlo.after (hostOps1 (F := Ideal)) Wv (Proc.devRef .tc main_v10) : Vec Ideal S32x512 .f32)
      = logitsOf (Wv (Proc.devRef .tc main_v2)) (Wv (Proc.devRef .tc main_arg2)) (Wv (Proc.devRef .tc main_arg3)) := by
    dsimp only [hostOps1]
    after_results
    rfl
  rw [e]
  exact logitsOf_apply _ _ _ b n

end Cert.ReferenceIdeal.Val

end
-- ==== Proof.RefHostGate.lean ====
/-
  The second half of the host operations between the two passes, read at an element: the [32, 512]
  logits are read as [32, 2, 256] (column 256 k + ch is branch k, channel ch) and the softmax over the
  middle axis is taken as written — the maximum over the two branches from -inf, once more against -inf,
  broadcast back and subtracted; the exponentials; their sum over the two branches from zero, broadcast
  back; the quotient — then a transpose to [2, 32, 256] and a reshape to [2, 8192, 1]. Entry
  (k, 256 b + ch, 0) is Skf.attn of the two logits of batch b, channel ch, at branch k.
-/
import proofs.«113176_g2000706281692390_pallasbulk_37_2_alg».proof.Proof.Gen.ReferenceIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic
import Idealize.ShloMosaic.Lib.IdealHost

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

/-! ## The chain's pieces, each as a function of its operand -/

/-- The [32, 512] logits read as [32, 2, 256]. -/
private def split (X : FVec Ideal S32x512 .f32) : FVec Ideal S32x2x256 .f32 :=
  shapeCast S32x2x256 X shapeCasts_S32x512_S32x2x256

/-- The maximum over the two branches from -inf, once more against -inf. -/
private def peak (L : FVec Ideal S32x2x256 .f32) : FVec Ideal S32x256 .f32 :=
  maximumf (broadcastInDim S32x256 ![] bcast_S_S32x256 (constant (F := Ideal) S_ .f32 0xFF800000#32))
    (Host.reduce FloatOps.maximumf L (constant (F := Ideal) S_ .f32 0xFF800000#32) reducesTo_S32x2x256_S32x256_d1 h_S_)

/-- A [32, 256] array repeated along a new middle axis of extent 2. -/
private def spread (v : FVec Ideal S32x256 .f32) : FVec Ideal S32x2x256 .f32 :=
  broadcastInDim S32x2x256 ![0, 1, 2] bcast_S32x1x256_S32x2x256_0_1_2
    (broadcastInDim S32x1x256 ![0, 2] bcast_S32x256_S32x1x256_0_2 v)

/-- The exponentials of the logits shifted by their maximum. -/
private def expo (L : FVec Ideal S32x2x256 .f32) : FVec Ideal S32x2x256 .f32 :=
  Host.exp (subf L (spread (peak L)))

/-- The sum over the two branches from zero. -/
private def total (E : FVec Ideal S32x2x256 .f32) : FVec Ideal S32x256 .f32 :=
  Host.reduceAdd E (constant (F := Ideal) S_ .f32 0x00000000#32) reducesTo_S32x2x256_S32x256_d1 h_S_

/-- The quotient of each exponential by the sum of its two branches. -/
private def quot (E : FVec Ideal S32x2x256 .f32) : FVec Ideal S32x2x256 .f32 :=
  Host.divf E (spread (total E))

/-- The branch axis brought in front, then rows 256 b + ch. -/
private def relay (D : FVec Ideal S32x2x256 .f32) : FVec Ideal S2x8192x1 .f32 :=
  shapeCast S2x8192x1 (transpose S2x32x256 [1, 0, 2] D transposes_S32x2x256_S2x32x256_1_0_2) shapeCasts_S2x32x256_S2x8192x1

/-- The whole chain from the logits to the gate buffer. -/
private def gateOf (X : FVec Ideal S32x512 .f32) : FVec Ideal S2x8192x1 .f32 :=
  relay (quot (expo (split X)))

/-! ## Each piece read at explicit coordinates -/

/-- Entry (b, k, ch) of the split logits is column 256 k + ch of row b. -/
private theorem split_apply (X : FVec Ideal S32x512 .f32) (b : Fin 32) (k : Fin 2) (ch : Fin 256) :
    split X (ix3 b k ch) = X (ix2 b (Skf.br k ch)) :=
  shapeCast_apply X shapeCasts_S32x512_S32x2x256 (ix3 b k ch) (ix2 b (Skf.br k ch)) (by
    rw [Shape.rowMajor_val_two, Shape.rowMajor_val_three]
    show b.val * 512 + (256 * k.val + ch.val) = (b.val * 2 + k.val) * 256 + ch.val
    omega)

/-- Entry (k, 256 b + ch, 0) of the relaid array is entry (b, k, ch) of the operand. -/
private theorem relay_apply (D : FVec Ideal S32x2x256 .f32) (k : Fin 2) (b : Fin 32) (ch : Fin 256) :
    relay D (ix3 k (Skf.rc b ch) (0 : Fin 1)) = D (ix3 b k ch) :=
  (shapeCast_apply (transpose S2x32x256 [1, 0, 2] D transposes_S32x2x256_S2x32x256_1_0_2) shapeCasts_S2x32x256_S2x8192x1
      (ix3 k (Skf.rc b ch) (0 : Fin 1)) (ix3 k b ch) (by
        rw [Shape.rowMajor_val_three, Shape.rowMajor_val_three]
        show (k.val * 32 + b.val) * 256 + ch.val = (k.val * 8192 + (256 * b.val + ch.val)) * 1 + 0
        omega)).trans
    (transpose_apply [1, 0, 2] D transposes_S32x2x256_S2x32x256_1_0_2 (ix3 k b ch) (ix3 b k ch)
      fun c => match c with | ⟨0, _⟩ => rfl | ⟨1, _⟩ => rfl | ⟨2, _⟩ => rfl)

/-- The repeated array at (b, k, ch) is the operand at (b, ch), whatever k. -/
private theorem spread_apply (v : FVec Ideal S32x256 .f32) (b : Fin 32) (k : Fin 2) (ch : Fin 256) :
    spread v (ix3 b k ch) = v (ix2 b ch) :=
  (broadcastInDim_apply ![0, 1, 2] bcast_S32x1x256_S32x2x256_0_1_2
      (broadcastInDim S32x1x256 ![0, 2] bcast_S32x256_S32x1x256_0_2 v) (ix3 b k ch) (ix3 b (0 : Fin 1) ch)
      fun a => match a with | ⟨0, _⟩ => rfl | ⟨1, _⟩ => rfl | ⟨2, _⟩ => rfl).trans
    (broadcastInDim_apply ![0, 2] bcast_S32x256_S32x1x256_0_2 v (ix3 b (0 : Fin 1) ch) (ix2 b ch)
      fun a => match a with | ⟨0, _⟩ => rfl | ⟨1, _⟩ => rfl)

/-- The f32 word of -inf is the bottom of the extended reals. -/
private theorem ofBits_neg_inf : Ideal.ofBits .f32 0xFF800000#32 = (⊥ : EReal) := by
  simp [Ideal.ofBits, Ideal.ieee]

/-- The middle axis of [32, 2, 256] is the one summed or maximised away. -/
private theorem midAxis : S32x2x256.Reduces [1] S32x256 := by decide

/-- The index of [32, 2, 256] over (b, ch) with k' inserted in the middle. -/
private theorem mid_lift (b : Fin 32) (ch : Fin 256) (k' : Fin 2) : midAxis.lift (ix2 b ch) k' = ix3 b k' ch :=
  funext fun c => match c with | ⟨0, _⟩ => Fin.ext rfl | ⟨1, _⟩ => Fin.ext rfl | ⟨2, _⟩ => Fin.ext rfl

/-- The running maximum at (b, ch) is Skf.smax of the two branches' logits. -/
private theorem peak_apply (L : FVec Ideal S32x2x256 .f32) (b : Fin 32) (ch : Fin 256) :
    peak L (ix2 b ch) = Skf.smax (fun k' => L (ix3 b k' ch)) := by
  have h1 : broadcastInDim S32x256 ![] bcast_S_S32x256 (constant (F := Ideal) S_ .f32 0xFF800000#32) (ix2 b ch) = (⊥ : EReal) :=
    (broadcastInDim_scalar_apply bcast_S_S32x256 _ (ix2 b ch)).trans ofBits_neg_inf
  have h2 : Host.reduce FloatOps.maximumf L (constant (F := Ideal) S_ .f32 0xFF800000#32) reducesTo_S32x2x256_S32x256_d1 h_S_ (ix2 b ch)
      = (Finset.univ : Finset (Fin 2)).fold max ⊥ (fun k' => L (ix3 b k' ch)) := by
    refine (Host.reduce_eq_fold_single FloatOps.maximumf L (constant (F := Ideal) S_ .f32 0xFF800000#32)
      reducesTo_S32x2x256_S32x256_d1 midAxis h_S_ (ix2 b ch)).trans ?_
    show (Finset.univ : Finset (Fin 2)).fold max (Ideal.ofBits .f32 0xFF800000#32) (fun k' => L (midAxis.lift (ix2 b ch) k')) = _
    rw [ofBits_neg_inf]
    exact congrArg (fun g : Fin 2 → EReal => (Finset.univ : Finset (Fin 2)).fold max ⊥ g)
      (funext fun k' => congrArg L (mid_lift b ch k'))
  show max (broadcastInDim S32x256 ![] bcast_S_S32x256 (constant (F := Ideal) S_ .f32 0xFF800000#32) (ix2 b ch))
      (Host.reduce FloatOps.maximumf L (constant (F := Ideal) S_ .f32 0xFF800000#32) reducesTo_S32x2x256_S32x256_d1 h_S_ (ix2 b ch)) = _
  rw [h1, h2]
  rfl

/-- The shifted exponential at (b, k, ch). -/
private theorem expo_apply (L : FVec Ideal S32x2x256 .f32) (b : Fin 32) (k : Fin 2) (ch : Fin 256) :
    expo L (ix3 b k ch) = Ideal.exp (L (ix3 b k ch) - Skf.smax (fun k' => L (ix3 b k' ch))) := by
  show Ideal.exp (L (ix3 b k ch) - spread (peak L) (ix3 b k ch)) = _
  rw [spread_apply, peak_apply]

/-- The sum over the two branches at (b, ch), from zero. -/
private theorem total_apply (E : FVec Ideal S32x2x256 .f32) (b : Fin 32) (ch : Fin 256) :
    total E (ix2 b ch) = 0 + ∑ k' : Fin 2, E (ix3 b k' ch) := by
  refine (Ideal.hostReduceAdd_single reducesTo_S32x2x256_S32x256_d1 midAxis E (Ideal.ofBits .f32 0x00000000#32) (ix2 b ch)).trans ?_
  show Ideal.ofBits .f32 0x00000000#32 + ∑ k' : Fin 2, E (midAxis.lift (ix2 b ch) k') = _
  rw [Ideal.ofBits_zero_f32]
  exact congrArg _ (Finset.sum_congr rfl fun k' _ => congrArg E (mid_lift b ch k'))

/-- The quotient at (b, k, ch). -/
private theorem quot_apply (E : FVec Ideal S32x2x256 .f32) (b : Fin 32) (k : Fin 2) (ch : Fin 256) :
    quot E (ix3 b k ch) = Ideal.div (E (ix3 b k ch)) (0 + ∑ k' : Fin 2, E (ix3 b k' ch)) := by
  show Ideal.div (E (ix3 b k ch)) (spread (total E) (ix3 b k ch)) = _
  rw [spread_apply, total_apply]

/-- The chain at entry (k, 256 b + ch, 0): the two-way softmax of the two logits of batch b, channel ch, at branch k. -/
private theorem gateOf_read (X : FVec Ideal S32x512 .f32) (k : Fin 2) (b : Fin 32) (ch : Fin 256) :
    gateOf X (ix3 k (Skf.rc b ch) (0 : Fin 1)) = Skf.attn (fun k' => X (ix2 b (Skf.br k' ch))) k := by
  unfold gateOf Skf.attn
  rw [relay_apply, quot_apply]
  simp only [expo_apply, split_apply]

/-- The gate buffer after the host operations between the passes, from the logits buffer. -/
theorem gate_read (Wv : Valuation τ sig (Elt Ideal)) (k : Fin 2) (b : Fin 32) (ch : Fin 256) :
    (StableHlo.after (hostOps1 (F := Ideal)) Wv (Proc.devRef .tc main_v24) : Vec Ideal S2x8192x1 .f32) (ix3 k (Skf.rc b ch) (0 : Fin 1))
      = Skf.attn (fun k' => (StableHlo.after (hostOps1 (F := Ideal)) Wv (Proc.devRef .tc main_v10) : Vec Ideal S32x512 .f32) (ix2 b (Skf.br k' ch))) k := by
  dsimp only [hostOps1]
  -- the first eleven operations end at the logits: what they leave is carried as one valuation W
  iterate 11 rw [StableHlo.after_cons]
  generalize HloOp.result _ _ = W
  after_results_simp
  generalize W (Proc.devRef .tc main_v10) = X
  exact gateOf_read X k b ch

end Cert.ReferenceIdeal.Val

end
-- ==== Proof.RefHost.lean ====
/-
  The host operations between the two passes, read at an element: entry (k, 256 b + ch, 0) of the gate
  array is the softmax Skf.attn of the two logits of batch b, channel ch, and each logit is Skf.logit of
  batch b's pooled vector; together, the gate Skf.attnOf of that pooled vector.
-/
import proofs.«113176_g2000706281692390_pallasbulk_37_2_alg».proof.Proof.RefHostLogits
import proofs.«113176_g2000706281692390_pallasbulk_37_2_alg».proof.Proof.RefHostGate

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

/-- The gate array after the host operations between the passes, at entry (k, 256 b + ch, 0). -/
theorem attn_read (Wv : Valuation τ sig (Elt Ideal)) (k : Fin 2) (b : Fin 32) (ch : Fin 256) :
    (StableHlo.after (hostOps1 (F := Ideal)) Wv (Proc.devRef .tc main_v24) : Vec Ideal S2x8192x1 .f32) (ix3 k (Skf.rc b ch) (0 : Fin 1))
      = Skf.attnOf
          (Skf.poolOfParts Skf.kap fun c ch' => (Wv (Proc.devRef .tc main_v2) : Vec Ideal S2x8192x1 .f32) (ix3 c (Skf.rc b ch') (0 : Fin 1)))
          (Skf.mat1 (Wv (Proc.devRef .tc main_arg2))) (Skf.mat2 (Wv (Proc.devRef .tc main_arg3))) k ch := by
  rw [gate_read]
  unfold Skf.attnOf
  exact congrArg (fun l => Skf.attn l k) (funext fun k' => logit_read Wv b (Skf.br k' ch))

end Cert.ReferenceIdeal.Val

end
-- ==== Proof.RefSum.lean ====
/-
  The weighted-sum pass. Its eight grid points each write one [8192, 128] column tile of the result,
  tile t holding positions 128 t .. 128 t + 127 of every row; the gate array [2, 8192, 1] is read whole
  at every point. Element (r, s) of the result is row r of the first map at s times gate (0, r, 0) plus
  row r of the second map at s times gate (1, r, 0).
-/
import proofs.«113176_g2000706281692390_pallasbulk_37_2_alg».proof.Proof.Gen.ReferenceIdeal.Frame
import proofs.«113176_g2000706281692390_pallasbulk_37_2_alg».proof.Proof.Fusion
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

variable (V : (c : Dev nD) → (b : Ref sig .tc) → Buf (Elt Ideal) ((c : Thread nD τ).loc b))

/-! ## The body's arithmetic at one element of a tile -/

/-- The zero offsets of a rank-2 block, spelt as a constant function. -/
private theorem zero_off2 : (![0, 0] : Fin 2 → Nat) = fun _ => 0 := funext fun a => by fin_cases a <;> rfl

/-- A column [8192, 1] broadcast along the 128 positions of a tile reads, at (p, q), the column's entry p. -/
private theorem bcast_col_apply (v : S8192x1.Idx → EReal) (p : Fin 8192) (q : Fin 128) :
    broadcastTo S8192x128 v broadcasts_S8192x1_S8192x128 (ix2 p q) = v (ix2 p (0 : Fin 1)) := by
  refine broadcastTo_apply v _ (ix2 p q) (ix2 p (0 : Fin 1)) fun a => ?_
  match a with
  | ⟨0, _⟩ => rfl
  | ⟨1, _⟩ => rfl

/-- A gate row [1, 8192, 1] viewed as a column [8192, 1] reads, at (p, 0), the row's entry (0, p, 0):
    both sit at row-major position p. -/
private theorem cast_col_apply (v : S1x8192x1.Idx → EReal) (p : Fin 8192) :
    shapeCast S8192x1 v shapeCasts_S1x8192x1_S8192x1 (ix2 p (0 : Fin 1)) = v (ix3 (0 : Fin 1) p (0 : Fin 1)) := by
  refine shapeCast_apply v _ (ix2 p (0 : Fin 1)) (ix3 (0 : Fin 1) p (0 : Fin 1)) ?_
  rw [Shape.rowMajor_val_three, Shape.rowMajor_val_two]
  show ((0 * 8192 + p.val) * 1 + 0) = p.val * 1 + 0
  omega

/-- The stored value at (p, q) of a tile: the first map's entry times the first gate row's entry p plus the
    second map's entry times the second gate row's entry p. -/
private theorem pay_apply (v0 : Vec Ideal S8192x128 .f32) (v2 : Vec Ideal S1x8192x1 .f32) (v6 : Vec Ideal S8192x128 .f32)
    (v8 : Vec Ideal S1x8192x1 .f32) (p : Fin 8192) (q : Fin 128) :
    k1_pay1 v0 v2 v6 v8 (ix2 p q)
      = Skf.mix (v0 (ix2 p q)) (v6 (ix2 p q)) (v2 (ix3 (0 : Fin 1) p (0 : Fin 1))) (v8 (ix3 (0 : Fin 1) p (0 : Fin 1))) := by
  unfold k1_pay1 Skf.mix
  show shapeCast S8192x128 v0 shapeCasts_S8192x128_S8192x128 (ix2 p q)
        * broadcastTo S8192x128 (shapeCast S8192x1 v2 shapeCasts_S1x8192x1_S8192x1) broadcasts_S8192x1_S8192x128 (ix2 p q)
      + shapeCast S8192x128 v6 shapeCasts_S8192x128_S8192x128 (ix2 p q)
        * broadcastTo S8192x128 (shapeCast S8192x1 v8 shapeCasts_S1x8192x1_S8192x1) broadcasts_S8192x1_S8192x128 (ix2 p q) = _
  rw [shapeCast_self, shapeCast_self, bcast_col_apply, bcast_col_apply, cast_col_apply, cast_col_apply]

/-- Row k of the gate block [2, 8192, 1], loaded as a [1, 8192, 1] piece at offset (k, 0, 0), reads entry (k, p, 0). -/
private theorem gate_row0 (x0 : Vec Ideal S2x8192x1 .f32) (p : Fin 8192) :
    View.ld x0 r1_1 (ix3 (0 : Fin 1) p (0 : Fin 1)) = x0 (ix3 (0 : Fin 2) p (0 : Fin 1)) := by
  show x0 (r1_1.idx _) = x0 _
  refine congrArg x0 (funext fun a => Fin.ext ?_)
  match a with
  | ⟨0, _⟩ => rfl
  | ⟨1, _⟩ => show 0 + 1 * p.val = p.val; omega
  | ⟨2, _⟩ => rfl

private theorem gate_row1 (x0 : Vec Ideal S2x8192x1 .f32) (p : Fin 8192) :
    View.ld x0 r1_2 (ix3 (0 : Fin 1) p (0 : Fin 1)) = x0 (ix3 (1 : Fin 2) p (0 : Fin 1)) := by
  show x0 (r1_2.idx _) = x0 _
  refine congrArg x0 (funext fun a => Fin.ext ?_)
  match a with
  | ⟨0, _⟩ => rfl
  | ⟨1, _⟩ => show 0 + 1 * p.val = p.val; omega
  | ⟨2, _⟩ => rfl

/-- What one grid point leaves in its tile, at (p, q), from the three blocks it reads. -/
private theorem out_apply (x0 : Vec Ideal S2x8192x1 .f32) (x1 x2 : Vec Ideal S8192x128 .f32) (p : Fin 8192) (q : Fin 128) :
    out1_3 x0 x1 x2 (ix2 p q)
      = Skf.mix (x1 (ix2 p q)) (x2 (ix2 p q)) (x0 (ix3 (0 : Fin 2) p (0 : Fin 1))) (x0 (ix3 (1 : Fin 2) p (0 : Fin 1))) := by
  unfold out1_3
  rw [View.canon_unit_zero zero_off2]
  simp only [View.ld_unit_zero (S := S8192x128) zero_off2]
  refine (pay_apply x1 (View.ld x0 r1_1) x2 (View.ld x0 r1_2) p q).trans ?_
  rw [gate_row0, gate_row1]

/-! ## From tiles to the array -/

/-- The whole result array: at (r, s), the first map times gate (0, r, 0) plus the second map times gate (1, r, 0). -/
private def wsum (a0 a1 : Vec Ideal S8192x1024 .f32) (g : Vec Ideal S2x8192x1 .f32) : Vec Ideal S8192x1024 .f32 :=
  fun i => Skf.mix (a0 i) (a1 i) (g (ix3 (0 : Fin 2) (i 0 : Fin 8192) (0 : Fin 1))) (g (ix3 (1 : Fin 2) (i 0 : Fin 8192) (0 : Fin 1)))

/-- The block indices over the eight points: the gate block never moves; the two maps' tiles and the result's tile
    sit at row block 0 and column block t. -/
private theorem idx_facts : ∀ t : Fin cfg1.N,
    win1_0.index t (0 : Fin 3) = 0 ∧ win1_0.index t (1 : Fin 3) = 0 ∧ win1_0.index t (2 : Fin 3) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The gate block at any point is the whole gate array. -/
private theorem blk_gate (c : Dev nD) (t : Fin cfg1.N) (k : Fin 2) (p : Fin 8192) :
    (iblk1 V c 0 t : Vec Ideal S2x8192x1 .f32) (ix3 k p (0 : Fin 1))
      = (V c main_v24 : Vec Ideal S2x8192x1 .f32) (ix3 k p (0 : Fin 1)) := by
  obtain ⟨e0, e1, e2, -⟩ := idx_facts t
  unfold iblk1
  rw [View.read_apply]
  show V c main_v24 _ = V c main_v24 _
  refine congrArg (V c main_v24) (funext fun a => Fin.ext ?_)
  match a with
  | ⟨0, _⟩ => show win1_0.index t (0 : Fin 3) * 2 + 1 * k.val = k.val; rw [e0]; omega
  | ⟨1, _⟩ => show win1_0.index t (1 : Fin 3) * 8192 + 1 * p.val = p.val; rw [e1]; omega
  | ⟨2, _⟩ => show win1_0.index t (2 : Fin 3) * 1 + 1 * 0 = 0; rw [e2]

/-- The first map's tile at point t, at (p, q), is the map at (p, 128 t + q). -/
private theorem blk_map0 (c : Dev nD) (t : Fin cfg1.N) (p : Fin 8192) (q : Fin 128) (s : Fin 1024) (hs : s.val = 128 * t.val + q.val) :
    (iblk1 V c 1 t : Vec Ideal S8192x128 .f32) (ix2 p q) = (V c main_v0 : Vec Ideal S8192x1024 .f32) (ix2 p s) := by
  obtain ⟨-, -, -, e0, e1, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 8192 + 1 * p.val = p.val; rw [e0]; omega
  | ⟨1, _⟩ => show win1_1.index t (1 : Fin 2) * 128 + 1 * q.val = s.val; rw [e1, hs]; omega

/-- The second map's tile at point t, at (p, q), is the map at (p, 128 t + q). -/
private theorem blk_map1 (c : Dev nD) (t : Fin cfg1.N) (p : Fin 8192) (q : Fin 128) (s : Fin 1024) (hs : s.val = 128 * t.val + q.val) :
    (iblk1 V c 2 t : Vec Ideal S8192x128 .f32) (ix2 p q) = (V c main_v1 : Vec Ideal S8192x1024 .f32) (ix2 p s) := by
  obtain ⟨-, -, -, -, -, e0, e1, -⟩ := idx_facts t
  unfold iblk1
  rw [View.read_apply]
  show V c main_v1 _ = V c main_v1 _
  refine congrArg (V c main_v1) (funext fun a => Fin.ext ?_)
  match a with
  | ⟨0, _⟩ => show win1_2.index t (0 : Fin 2) * 8192 + 1 * p.val = p.val; rw [e0]; omega
  | ⟨1, _⟩ => show win1_2.index t (1 : Fin 2) * 128 + 1 * q.val = s.val; rw [e1, hs]; omega

/-- What point t leaves at tile index j is the whole-array function at the index i with the same row and with
    column 128 t + (j's column). -/
private theorem tile_apply (c : Dev nD) (t : Fin cfg1.N) (j : S8192x128.Idx) (i : S8192x1024.Idx)
    (h0 : (i 0).val = (j 0).val) (h1 : (i 1).val = 128 * t.val + (j 1).val) :
    out1_3 (iblk1 V c 0 t) (iblk1 V c 1 t) (iblk1 V c 2 t) j
      = wsum (V c main_v0) (V c main_v1) (V c main_v24) i := by
  obtain ⟨p, q, rfl⟩ : ∃ (p : Fin 8192) (q : Fin 128), j = ix2 p q := ⟨j 0, j 1, eq_ix2 j⟩
  obtain ⟨r, s, rfl⟩ : ∃ (r : Fin 8192) (s : Fin 1024), i = ix2 r s := ⟨i 0, i 1, eq_ix2 i⟩
  obtain rfl : r = p := Fin.ext h0
  refine (out_apply _ _ _ r q).trans ?_
  show Skf.mix _ _ _ _ = Skf.mix _ _ _ _
  rw [blk_map0 V c t r q s h1, blk_map1 V c t r q s h1, blk_gate V c t 0 r, blk_gate V c t 1 r]

/-- WHAT POINT t WRITES BACK is tile t of the whole-array function. -/
private theorem flushed_eq (c : Dev nD) (t : Fin cfg1.N) :
    (dat1 V c).flushed 3 t
      = ((cfg1.win 3).blk t).view.read (Elt Ideal) (wsum (V c main_v0) (V c main_v1) (V c main_v24)) := by
  show (cfg1.win 3).cut (grid1.coords t) ((dat1 V c).after 3 t) = _
  rw [after1_3]
  obtain ⟨-, -, -, -, -, -, -, e0, e1⟩ := idx_facts t
  funext j
  refine tile_apply V c t j _ ?_ ?_
  · show win1_3.index t (0 : Fin 2) * 8192 + 1 * (j 0).val = (j 0).val; rw [e0]; omega
  · show win1_3.index t (1 : Fin 2) * 128 + 1 * (j 1).val = 128 * t.val + (j 1).val; rw [e1]; omega

/-- An index of the array is in point t's tile iff each coordinate is in the tile's range on its axis. -/
private theorem mem_blk (t : Fin cfg1.N) (i : S8192x1024.Idx) :
    i ∈ ((cfg1.win 3).blk t).view.set
      ↔ ∀ a : Fin 2, win1_3.index t a * S8192x128.size a ≤ (i a).val ∧ (i a).val < win1_3.index t a * S8192x128.size a + S8192x128.size a := by
  show i ∈ ((View.whole main_v25).slice (win1_3.rect t)).set ↔ _
  rw [View.set_slice_whole, Rect.mem_set_unit]
  exact Iff.rfl

/-- Column s of the array lies in the tile of point s / 128, and every point writes its tile back. -/
private theorem cover (i : S8192x1024.Idx) :
    ∃ t : Fin cfg1.N, (cfg1.win 3).flush t = true ∧ i ∈ ((cfg1.win 3).blk t).view.set := by
  have hi0 : (i 0).val < 8192 := idx2_lt0 i
  have hi1 : (i 1).val < 1024 := idx2_lt1 i
  have hN : grid1.N = 8 := N_1
  obtain ⟨t, ht⟩ : ∃ t : Fin cfg1.N, t.val = (i 1).val / 128 := ⟨⟨(i 1).val / 128, by show _ < grid1.N; omega⟩, rfl⟩
  obtain ⟨-, -, -, -, -, -, -, e0, e1⟩ := idx_facts t
  refine ⟨t, flush1_3 t, ?_⟩
  rw [mem_blk]
  intro a
  match a with
  | ⟨0, _⟩ => show win1_3.index t (0 : Fin 2) * 8192 ≤ (i 0).val ∧ (i 0).val < win1_3.index t (0 : Fin 2) * 8192 + 8192; rw [e0]; omega
  | ⟨1, _⟩ => show win1_3.index t (1 : Fin 2) * 128 ≤ (i 1).val ∧ (i 1).val < win1_3.index t (1 : Fin 2) * 128 + 128; rw [e1]; omega

/-- THE RESULT ARRAY after the pass is the whole-array function of the two maps and the gate. -/
private theorem wsum_array (c : Dev nD) :
    (dat1 V c).arrAt 3 cfg1.N = wsum (V c main_v0) (V c main_v1) (V c main_v24) :=
  (dat1 V c).arrAt_eq_of_cover 3 (wsum (V c main_v0) (V c main_v1) (V c main_v24)) (fun t _ => flushed_eq V c t) cover

/-- After the weighted-sum pass, element (r, s) of its result array. -/
theorem wsum_final (c : Dev nD) (r : Fin 8192) (s : Fin 1024) :
    ((dat1 (F := Ideal) V c).arrAt 3 cfg1.N : Vec Ideal S8192x1024 .f32) (ix2 r s)
      = Skf.mix ((V c main_v0 : Vec Ideal S8192x1024 .f32) (ix2 r s)) ((V c main_v1 : Vec Ideal S8192x1024 .f32) (ix2 r s))
          ((V c main_v24 : Vec Ideal S2x8192x1 .f32) (ix3 (0 : Fin 2) r (0 : Fin 1)))
          ((V c main_v24 : Vec Ideal S2x8192x1 .f32) (ix3 (1 : Fin 2) r (0 : Fin 1))) := by
  rw [wsum_array V c]
  rfl

end Cert.ReferenceIdeal.Val

end
-- ==== Proof.RefRun.lean ====
/-
  The two-pass program's result. Its arrays are the two feature maps laid out [8192, 1024] (row
  256 b + ch, position 32 h + w: a reshape before the first pass, untouched afterwards); the first pass
  leaves the halves' partial sums, the host operations between the passes turn them into the gates, the
  second pass forms the gate-weighted sum, and a last reshape lays it out [32, 256, 32, 32]. Read at an
  element this is the fusion's second spelling, Skf.resR, of the four argument arrays.
-/
import proofs.«113176_g2000706281692390_pallasbulk_37_2_alg».proof.Proof.RefLaunch
import proofs.«113176_g2000706281692390_pallasbulk_37_2_alg».proof.Proof.RefArrays
import proofs.«113176_g2000706281692390_pallasbulk_37_2_alg».proof.Proof.RefPool
import proofs.«113176_g2000706281692390_pallasbulk_37_2_alg».proof.Proof.RefHost
import proofs.«113176_g2000706281692390_pallasbulk_37_2_alg».proof.Proof.RefSum

noncomputable section

open Idealize.ShloMosaic Idealize.ShloMosaic.TcCoe Idealize.ShloMosaic.ValueIdx Idealize.SL.Sem
open Idealize.ShloMosaic.Pipeline (Dat)
open scoped BigOperators

namespace Cert.ReferenceIdeal.Val

open Cert.ReferenceIdeal Cert.ReferenceIdeal.Gen

variable (m : (ℓ : Loc nD τ sig) → Buf (Elt Ideal) ℓ) (ρ : Dev nD → PrngReg)

/-- Equal pooled vectors and equal weights give equal gates. -/
private theorem attnOf_congr {p p' : Fin 256 → EReal} {w1 w1' : Skf.Mat1} {w2 w2' : Skf.Mat2}
    (hp : p = p') (h1 : w1 = w1') (h2 : w2 = w2') (k : Fin 2) (ch : Fin 256) :
    Skf.attnOf p w1 w2 k ch = Skf.attnOf p' w1' w2' k ch := by
  subst hp; subst h1; subst h2; rfl

/-- Equal values and equal gates give equal gate-weighted sums. -/
private theorem mix_congr {x0 x0' x1 x1' g0 g0' g1 g1' : EReal}
    (h0 : x0 = x0') (h1 : x1 = x1') (e0 : g0 = g0') (e1 : g1 = g1') :
    Skf.mix x0 x1 g0 g1 = Skf.mix x0' x1' g0' g1' := by
  subst h0; subst h1; subst e0; subst e1; rfl

/-- The first pass's result array at (cc, 256 b + ch, 0) is half cc's partial sum of batch b, channel ch
    of the two argument maps. -/
private theorem parts_read (c : Dev nD) (b : Fin 32) (cc : Fin 2) (ch : Fin 256) :
    (W2 m ρ c (Proc.devRef .tc main_v2) : Vec Ideal S2x8192x1 .f32) (ix3 cc (Skf.rc b ch) (0 : Fin 1))
      = Skf.part (Skf.rowOf (m ((c.tc : Thread nD τ).loc main_arg0)) b ch)
          (Skf.rowOf (m ((c.tc : Thread nD τ).loc main_arg1)) b ch) cc := by
  have h1 : (W2 m ρ c (Proc.devRef .tc main_v2) : Vec Ideal S2x8192x1 .f32) (ix3 cc (Skf.rc b ch) (0 : Fin 1))
      = ((dat0 (F := Ideal) (V1 m ρ) c).arrAt 2 cfg0.N : Vec Ideal S2x8192x1 .f32) (ix3 cc (Skf.rc b ch) (0 : Fin 1)) :=
    congrFun (W2_v2 m ρ c) _
  have e0 : (fun s => (V1 m ρ c main_v0 : Vec Ideal S8192x1024 .f32) (ix2 (Skf.rc b ch) s))
      = Skf.rowOf (m ((c.tc : Thread nD τ).loc main_arg0)) b ch :=
    funext fun s => V1_v0_apply m ρ c b ch s
  have e1 : (fun s => (V1 m ρ c main_v1 : Vec Ideal S8192x1024 .f32) (ix2 (Skf.rc b ch) s))
      = Skf.rowOf (m ((c.tc : Thread nD τ).loc main_arg1)) b ch :=
    funext fun s => V1_v1_apply m ρ c b ch s
  exact h1.trans ((pool_final (V1 m ρ) c cc (Skf.rc b ch)).trans
    (congrArg₂ (fun u0 u1 => Skf.part u0 u1 cc) e0 e1))

/-- The gate array the second pass finds, at (k, 256 b + ch, 0), is the gate of branch k, channel ch from
    batch b's pooled vector by partial sums. -/
private theorem gate_at (c : Dev nD) (k : Fin 2) (b : Fin 32) (ch : Fin 256) :
    (V3 m ρ c main_v24 : Vec Ideal S2x8192x1 .f32) (ix3 k (Skf.rc b ch) (0 : Fin 1))
      = Skf.attnOf
          (Skf.poolR Skf.kap (Skf.rowOf (m ((c.tc : Thread nD τ).loc main_arg0)) b)
            (Skf.rowOf (m ((c.tc : Thread nD τ).loc main_arg1)) b))
          (Skf.mat1 (m ((c.tc : Thread nD τ).loc main_arg2))) (Skf.mat2 (m ((c.tc : Thread nD τ).loc main_arg3))) k ch := by
  have h1 : (V3 m ρ c main_v24 : Vec Ideal S2x8192x1 .f32) (ix3 k (Skf.rc b ch) (0 : Fin 1))
      = (StableHlo.after (hostOps1 (F := Ideal)) (W2 m ρ c) (Proc.devRef .tc main_v24) : Vec Ideal S2x8192x1 .f32)
          (ix3 k (Skf.rc b ch) (0 : Fin 1)) :=
    congrFun (V3_v24 m ρ c) _
  have eP : (fun (cc : Fin 2) (ch' : Fin 256) =>
        (W2 m ρ c (Proc.devRef .tc main_v2) : Vec Ideal S2x8192x1 .f32) (ix3 cc (Skf.rc b ch') (0 : Fin 1)))
      = fun cc ch' => Skf.part (Skf.rowOf (m ((c.tc : Thread nD τ).loc main_arg0)) b ch')
          (Skf.rowOf (m ((c.tc : Thread nD τ).loc main_arg1)) b ch') cc :=
    funext fun cc => funext fun ch' => parts_read m ρ c b cc ch'
  exact h1.trans ((attn_read (W2 m ρ c) k b ch).trans
    (attnOf_congr (congrArg (Skf.poolOfParts Skf.kap) eP) (congrArg Skf.mat1 (W2_arg2 m ρ c))
      (congrArg Skf.mat2 (W2_arg3 m ρ c)) k ch))

/-- The program's result at (b, ch, h, w) is the fusion's second spelling there. -/
private theorem result_at (c : Dev nD) (b : Fin 32) (ch : Fin 256) (h w : Fin 32) :
    (W5 m ρ c (Proc.devRef .tc main_v26) : Vec Ideal S32x256x32x32 .f32) (ix4 b ch h w)
      = Skf.resR Skf.kap (m ((c.tc : Thread nD τ).loc main_arg0)) (m ((c.tc : Thread nD τ).loc main_arg1))
          (m ((c.tc : Thread nD τ).loc main_arg2)) (m ((c.tc : Thread nD τ).loc main_arg3)) (ix4 b ch h w) := by
  have x0 : (V3 m ρ c main_v0 : Vec Ideal S8192x1024 .f32) (ix2 (Skf.rc b ch) (Skf.sp h w))
      = Skf.rowOf (m ((c.tc : Thread nD τ).loc main_arg0)) b ch (Skf.sp h w) :=
    (congrFun (V3_v0 m ρ c) _).trans (V1_v0_apply m ρ c b ch (Skf.sp h w))
  have x1 : (V3 m ρ c main_v1 : Vec Ideal S8192x1024 .f32) (ix2 (Skf.rc b ch) (Skf.sp h w))
      = Skf.rowOf (m ((c.tc : Thread nD τ).loc main_arg1)) b ch (Skf.sp h w) :=
    (congrFun (V3_v1 m ρ c) _).trans (V1_v1_apply m ρ c b ch (Skf.sp h w))
  exact (W5_v26_apply m ρ c b ch h w).trans ((wsum_final (V3 m ρ) c (Skf.rc b ch) (Skf.sp h w)).trans
    (mix_congr x0 x1 (gate_at m ρ c 0 b ch) (gate_at m ρ c 1 b ch)))

/-- Every weakly fair execution ends with the result array at the fusion's second spelling of the
    arguments, and the arguments unchanged. -/
theorem run : θ_run defs (onTc (τ := τ) (main (F := Ideal))) ⟨m, fun _ => 0, ρ⟩ (fun r => ∀ c : Dev nD,
      r.2.mem ((c.tc : Thread nD τ).loc main_v26)
        = Skf.resR Skf.kap (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ⟨(hr c).1.trans ?_, (hr c).2⟩) (run_W5 m ρ)
  funext i
  rw [eq_ix4 i]
  exact result_at m ρ c (i 0) (i 1) (i 2) (i 3)

end Cert.ReferenceIdeal.Val

end
-- ==== Proof.FusionPool.lean ====
/-
  The pooled vector does not depend on how the 1024 positions are summed: the sum of y0 plus the sum of
  y1 is the sum of y0 + y1, and the 1024 positions are the disjoint union of the 2 x 4 tiles of 128, so
  the sum over positions is the sum over halves of the sum over tiles of the tile sums; zero added on the
  left changes nothing. Only commutativity and associativity of + on the extended reals are used, so
  this holds for every input, finite or not.
-/
import proofs.«113176_g2000706281692390_pallasbulk_37_2_alg».proof.Proof.Fusion
import Mathlib.Algebra.BigOperators.Fin
import Mathlib.Algebra.BigOperators.Group.Finset.Basic
import Mathlib.Data.Fintype.BigOperators

noncomputable section

open scoped BigOperators
open Idealize.ShloMosaic Idealize.ShloMosaic.ValueIdx

namespace Skf

/-- The 1024 positions as the 2 x 4 tiles of 128: position 128 (4 c + i) + l, with inverse
c = s / 512, i = (s / 128) mod 4, l = s mod 128. -/
private def posEquiv : (Fin 2 × Fin 4) × Fin 128 ≃ Fin 1024 where
  toFun p := pos p.1.1 p.1.2 p.2
  invFun s :=
    ((⟨s.val / 512, by have := s.isLt; omega⟩, ⟨(s.val / 128) % 4, by omega⟩), ⟨s.val % 128, by omega⟩)
  left_inv p := by
    obtain ⟨⟨c, i⟩, l⟩ := p
    have hc := c.isLt; have hi := i.isLt; have hl := l.isLt
    refine Prod.ext (Prod.ext (Fin.ext ?_) (Fin.ext ?_)) (Fin.ext ?_) <;>
      simp only [pos] <;> omega
  right_inv s := by
    have hs := s.isLt
    refine Fin.ext ?_
    simp only [pos]
    omega

/-- A sum over the 1024 positions is the sum over halves, tiles and places of the summand at that
position. -/
private theorem sum_pos (f : Fin 1024 → EReal) :
    ∑ s, f s = ∑ c : Fin 2, ∑ i : Fin 4, ∑ l : Fin 128, f (pos c i l) := by
  rw [← Fintype.sum_equiv posEquiv (fun p => f (pos p.1.1 p.1.2 p.2)) f (fun _ => rfl),
    Fintype.sum_prod_type, Fintype.sum_prod_type]

/-- The two spellings of the pooled vector agree on every extended-real input. -/
theorem poolK_eq_poolR (κ : EReal) (y0 y1 : Row) : poolK κ y0 y1 = poolR κ y0 y1 := by
  funext ch
  unfold poolK poolR poolOfParts part tile
  refine congrArg (· * κ) ?_
  rw [← Finset.sum_add_distrib, sum_pos]
  simp only [Fin.sum_univ_two, Fin.sum_univ_four, zero_add]

end Skf

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.FusionGate.lean ====
/-
  The two-way softmax against the logistic, on real logits a, b and real values x0, x1. With M = max a b,
  exp (a - M) / (exp (a - M) + exp (b - M)) = 1 / (1 + exp (b - a)), the logistic of a - b, and the other
  branch is one minus it; so x0 * g0 + x1 * g1 = x1 + g0 * (x0 - x1). Everything is finite, so the
  extended-real operations are the real ones.
-/
import proofs.«113176_g2000706281692390_pallasbulk_37_2_alg».proof.Proof.Fusion
import proofs.«113176_g2000706281692390_pallasbulk_37_2_alg».proof.Proof.LibFinite
import Mathlib.Analysis.SpecialFunctions.Exp

noncomputable section

open scoped BigOperators
open Idealize.ShloMosaic Idealize.ShloMosaic.ValueIdx

namespace Skf

open Cert.LibFinite

/-- The index set of the two branches is the pair 0, 1. -/
private theorem univ_two : (Finset.univ : Finset (Fin 2)) = {0, 1} := by
  ext i
  fin_cases i <;> simp

/-- The running maximum of two real logits is the larger one. -/
private theorem smax_coe (l : Fin 2 → EReal) (a b : ℝ) (h0 : l 0 = (a : EReal)) (h1 : l 1 = (b : EReal)) :
    smax l = ((max a b : ℝ) : EReal) := by
  have hne : (0 : Fin 2) ∉ ({1} : Finset (Fin 2)) := by decide
  unfold smax
  rw [univ_two, Finset.fold_insert hne, Finset.fold_singleton, h0, h1,
    max_eq_left (bot_le : (⊥ : EReal) ≤ (b : EReal)), max_eq_right (bot_le : (⊥ : EReal) ≤ max (a : EReal) (b : EReal))]
  rcases le_total a b with h | h
  · rw [max_eq_right h, max_eq_right (EReal.coe_le_coe_iff.mpr h)]
  · rw [max_eq_left h, max_eq_left (EReal.coe_le_coe_iff.mpr h)]

/-- The shifted two-way softmax against the logistic, over the reals: with positive p = exp (a - M) and
    q = exp (b - M), whose quotient q / p is exp (-(a - b)). -/
private theorem real_gate (p q x0 x1 : ℝ) (hp : 0 < p) (hq : 0 < q) :
    x1 + (1 + q / p)⁻¹ * (x0 - x1) = x0 * (p / (p + q)) + x1 * (q / (p + q)) := by
  have hpq : p + q ≠ 0 := (add_pos hp hq).ne'
  have hp' : p ≠ 0 := hp.ne'
  field_simp
  ring

/-- On real logits and real values the gate-weighted sum is the logistic form. -/
theorem gate_law (l : Fin 2 → EReal) (a b x0 x1 : ℝ) (h0 : l 0 = (a : EReal)) (h1 : l 1 = (b : EReal)) :
    (x1 : EReal) + Ideal.logistic (l 0 - l 1) * ((x0 : EReal) - (x1 : EReal))
      = (x0 : EReal) * attn l 0 + (x1 : EReal) * attn l 1 := by
  have hs : smax l = ((max a b : ℝ) : EReal) := smax_coe l a b h0 h1
  have hp : 0 < Real.exp (a - max a b) := Real.exp_pos _
  have hq : 0 < Real.exp (b - max a b) := Real.exp_pos _
  have hden : Real.exp (a - max a b) + Real.exp (b - max a b) ≠ 0 := (add_pos hp hq).ne'
  have hA0 : attn l 0
      = ((Real.exp (a - max a b) / (Real.exp (a - max a b) + Real.exp (b - max a b)) : ℝ) : EReal) := by
    unfold attn
    rw [Fin.sum_univ_two, hs, h0, h1, zero_add, ← EReal.coe_sub, ← EReal.coe_sub, exp_coe, exp_coe,
      ← EReal.coe_add, div_coe_coe _ hden]
  have hA1 : attn l 1
      = ((Real.exp (b - max a b) / (Real.exp (a - max a b) + Real.exp (b - max a b)) : ℝ) : EReal) := by
    unfold attn
    rw [Fin.sum_univ_two, hs, h0, h1, zero_add, ← EReal.coe_sub, ← EReal.coe_sub, exp_coe, exp_coe,
      ← EReal.coe_add, div_coe_coe _ hden]
  have hexp : Real.exp (-(a - b)) = Real.exp (b - max a b) / Real.exp (a - max a b) := by
    rw [← Real.exp_sub]
    congr 1
    ring
  rw [hA0, hA1, h0, h1, ← EReal.coe_sub, Ideal.logistic_coe, ← EReal.coe_sub, ← EReal.coe_mul, ← EReal.coe_add,
    ← EReal.coe_mul, ← EReal.coe_mul, ← EReal.coe_add, hexp]
  exact congrArg _ (real_gate _ _ x0 x1 hp hq)

end Skf

end
-- ==== Proof.FusionLaw.lean ====
/-
  The two spellings of the fusion agree on finite inputs. The pooled vectors agree on every input; with
  finite maps, weights and pooling constant the pooled vector, the hidden layer and the logits are finite
  (sums, products and maxima of finite extended reals are finite), so the gate law on reals applies at
  every channel and position.
-/
import proofs.«113176_g2000706281692390_pallasbulk_37_2_alg».proof.Proof.FusionPool
import proofs.«113176_g2000706281692390_pallasbulk_37_2_alg».proof.Proof.FusionGate

noncomputable section

open scoped BigOperators
open Idealize.ShloMosaic Idealize.ShloMosaic.ValueIdx

namespace Skf

open Cert.LibFinite

/-- The pooling constant is a real number: the word's exponent field is 117 and its fraction zero, so it
    denotes 2 ^ (117 - 127) = 1 / 1024. -/
theorem kap_isFin : IsFin kap := by
  have h : kap = (((2 : ℝ) ^ (-10 : Int) : ℝ) : EReal) := by
    simp [kap, Ideal.ofBits, Ideal.ieee, -EReal.coe_mul]
    norm_num
  rw [h]
  exact isFin_coe _

/-- On finite inputs the two spellings of one batch element's result agree. -/
theorem rowK_eq_rowR (κ : EReal) (hκ : IsFin κ) (y0 y1 : Row) (w1 : Mat1) (w2 : Mat2)
    (hy0 : ∀ ch s, IsFin (y0 ch s)) (hy1 : ∀ ch s, IsFin (y1 ch s))
    (hw1 : ∀ ch j, IsFin (w1 ch j)) (hw2 : ∀ j n, IsFin (w2 j n)) (ch : Fin 256) (s : Fin 1024) :
    rowK κ y0 y1 w1 w2 ch s = rowR κ y0 y1 w1 w2 ch s := by
  unfold rowK rowR attnOf
  rw [← poolK_eq_poolR]
  -- the pooled vector, the hidden layer and the logits are finite
  have hp : ∀ c, IsFin (poolK κ y0 y1 c) := fun c =>
    ((isFin_sum_univ _ (hy0 c)).add (isFin_sum_univ _ (hy1 c))).mul hκ
  have hh : ∀ j, IsFin (hid (poolK κ y0 y1) w1 j) := fun j =>
    (isFin_sum_univ _ fun c => (hp c).mul (hw1 c j)).max isFin_zero
  have hl : ∀ n, IsFin (logit (poolK κ y0 y1) w1 w2 n) := fun n =>
    isFin_sum_univ _ fun j => (hh j).mul (hw2 j n)
  obtain ⟨a, ha⟩ := isFin_iff.mp (hl (br 0 ch))
  obtain ⟨b, hb⟩ := isFin_iff.mp (hl (br 1 ch))
  obtain ⟨x0, hx0⟩ := isFin_iff.mp (hy0 ch s)
  obtain ⟨x1, hx1⟩ := isFin_iff.mp (hy1 ch s)
  rw [hx0, hx1]
  exact gate_law (fun k' => logit (poolK κ y0 y1) w1 w2 (br k' ch)) a b x0 x1 ha hb

/-- On finite arrays the two spellings of the whole result agree. -/
theorem resK_eq_resR (a0 a1 : SF.Idx → EReal) (a2 : SW1.Idx → EReal) (a3 : SW2.Idx → EReal)
    (h0 : ∀ i, IsFin (a0 i)) (h1 : ∀ i, IsFin (a1 i)) (h2 : ∀ i, IsFin (a2 i)) (h3 : ∀ i, IsFin (a3 i)) :
    resK kap a0 a1 a2 a3 = resR kap a0 a1 a2 a3 := by
  funext i
  exact rowK_eq_rowR kap kap_isFin _ _ _ _ (fun _ _ => h0 _) (fun _ _ => h1 _) (fun _ _ => h2 _) (fun _ _ => h3 _) _ _

end Skf

end
-- ==== Proof.Inputs.lean ====
/-
  What the precondition says. It is the conjunction, over the four argument arrays, of "every entry's
  absolute value is below +inf". Over the extended reals |x| < +inf says x is neither +inf nor -inf, so
  every entry of every argument is a real number.
-/
import proofs.«113176_g2000706281692390_pallasbulk_37_2_alg».proof.Pre_finite_inputs
import proofs.«113176_g2000706281692390_pallasbulk_37_2_alg».proof.Proof.Gen.Pre_finite_inputs
import proofs.«113176_g2000706281692390_pallasbulk_37_2_alg».proof.Proof.LibFinite
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Inputs

open Cert.LibFinite Cert.Pre_finite_inputs

/-- The result of a reduction over every axis has exactly one index. -/
private instance subsingleton_scalar_idx : Subsingleton S_.Idx := ⟨fun a b => funext fun d => d.elim0⟩

/-- The word 0x7F800000 is +inf. -/
private theorem word_top : Ideal.ofBits .f32 0x7F800000#32 = (⊤ : EReal) := by simp [Ideal.ofBits, Ideal.ieee]

/-- A truth value that is the word 1 is true. -/
private theorem ofBool_eq_one {b : Bool} (h : BitVec.ofBool b = 1#1) : b = true := by
  cases b
  · exact absurd h (by decide)
  · rfl

/-- On one value: max x (-x) < +inf says x is neither infinity. If x were +inf the maximum would be +inf; if x were
    -inf then -x, and so the maximum, would be +inf. -/
private theorem isFin_of_abs_lt (x : EReal)
    (h : Ideal.cmp .olt (max x (-x)) (Ideal.ofBits .f32 0x7F800000#32) = 1#1) : IsFin x := by
  rw [word_top] at h
  have hlt : max x (-x) < ⊤ := of_decide_eq_true (ofBool_eq_one h)
  rw [max_lt_iff] at hlt
  refine ⟨ne_of_lt hlt.1, fun hb => ?_⟩
  rw [hb, EReal.neg_bot] at hlt
  exact lt_irrefl _ hlt.2

/-- On one array of any shape: where the comparison of |a| with the broadcast +inf is 1 at an index, the entry there is
    finite. The absolute value, the comparison, the broadcast and the constant are all read index by index. -/
private theorem isFin_of_cmp {s : Shape} (a : FVec Ideal s .f32)
    (hb : S_.BroadcastsInDim s (![] : Fin 0 → Fin s.rank)) (i : s.Idx)
    (h : cmpf .olt (Host.absf a) (broadcastInDim s ![] hb (constant (F := Ideal) S_ .f32 0x7F800000#32)) i = 1#1) :
    IsFin (a i) :=
  isFin_of_abs_lt (a i) h

/-- If the precondition's function is all ones on four arrays, every entry of each is finite. -/
theorem finite_of_fn [Cert.Pre_finite_inputs.Facts] (a0 a1 : FVec Ideal S32x256x32x32 .f32) (a2 : FVec Ideal S256x32 .f32)
    (a3 : FVec Ideal S32x512 .f32) (h : Cert.Pre_finite_inputs.fn (F := Ideal) a0 a1 a2 a3 = fun _ => 1#1) :
    (∀ i, IsFin (a0 i)) ∧ (∀ i, IsFin (a1 i)) ∧ (∀ i, IsFin (a2 i)) ∧ (∀ i, IsFin (a3 i)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  refine ⟨fun i => ?_, fun i => ?_, fun i => ?_, fun i => ?_⟩
  · exact isFin_of_cmp a0 _ i (Host.reduce_andi_all _ _ _ _ _ e0 i)
  · exact isFin_of_cmp a1 _ i (Host.reduce_andi_all _ _ _ _ _ e1 i)
  · exact isFin_of_cmp a2 _ i (Host.reduce_andi_all _ _ _ _ _ e2 i)
  · exact isFin_of_cmp a3 _ i (Host.reduce_andi_all _ _ _ _ _ e3 i)

end Cert.Inputs

end
-- ==== Proof.lean ====
/-
  A fused selective fusion of two feature maps against its two-pass reference, over the extended reals.

  Both programs compute, per batch element and channel, a two-way gate from the mean of the two maps over
  the 1024 positions sent through a two-layer map, and return the gate-weighted sum of the maps. The fused
  program sums each map over its positions, takes the gate as the logistic of the two logits' difference
  and returns x1 + gate * (x0 - x1). The reference accumulates eight tile sums of x0 + x1 in two halves,
  takes the gate as a max-shifted softmax over the two branches and returns x0 * gate0 + x1 * gate1.

  The frames of the two kernel programs are their generated frame certificates; the reference's frame
  is its run with the result dropped. Nothing was rewritten by the idealization, so that conjunct is
  trivial. For the equivalence: the fused program's result array is Skf.resK of the arguments and the
  reference's is Skf.resR of them; the precondition makes every argument entry a real number, and on
  real inputs the two agree (the pooled sums by commutativity and associativity alone, the gate by the
  identity exp (a - M) / (exp (a - M) + exp (b - M)) = 1 / (1 + exp (b - a)), the weighted sum by
  distributivity, which is where finiteness is used).
-/
import proofs.«113176_g2000706281692390_pallasbulk_37_2_alg».proof.Defs
import proofs.«113176_g2000706281692390_pallasbulk_37_2_alg».proof.Proof.Gen.Kernel
import proofs.«113176_g2000706281692390_pallasbulk_37_2_alg».proof.Proof.Gen.Kernel.Frame
import proofs.«113176_g2000706281692390_pallasbulk_37_2_alg».proof.Proof.Gen.KernelIdeal
import proofs.«113176_g2000706281692390_pallasbulk_37_2_alg».proof.Proof.Gen.KernelIdeal.Frame
import proofs.«113176_g2000706281692390_pallasbulk_37_2_alg».proof.Proof.Gen.ReferenceIdeal
import proofs.«113176_g2000706281692390_pallasbulk_37_2_alg».proof.Proof.Gen.ReferenceIdeal.Frame
import proofs.«113176_g2000706281692390_pallasbulk_37_2_alg».proof.Proof.Gen.Pre_finite_inputs
import proofs.«113176_g2000706281692390_pallasbulk_37_2_alg».proof.Proof.KernelArray
import proofs.«113176_g2000706281692390_pallasbulk_37_2_alg».proof.Proof.RefRun
import proofs.«113176_g2000706281692390_pallasbulk_37_2_alg».proof.Proof.FusionLaw
import proofs.«113176_g2000706281692390_pallasbulk_37_2_alg».proof.Proof.Inputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on finite arguments both programs end with the same result array:
    the fused program at the fusion's first spelling, the reference at its second, equal on finite inputs. -/
theorem algebraic : Cert.algebraic_KernelIdeal_ReferenceIdeal := by
  intro m ρ m' ρ' hpre hagree
  refine ⟨fun c => Skf.resK Skf.kap (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.Val.run m' ρ')
  rw [(hagree c).1, (hagree c).2.1, (hagree c).2.2.1, (hagree c).2.2.2]
  obtain ⟨f0, f1, f2, f3⟩ := Cert.Inputs.finite_of_fn _ _ _ _ (hpre c)
  exact (Skf.resK_eq_resR _ _ _ _ f0 f1 f2 f3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
